-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x192 : Shape := ⟨3, ![4096, 49, 192]⟩
abbrev S64x49x49 : Shape := ⟨3, ![64, 49, 49]⟩
abbrev S576x192 : Shape := ⟨2, ![576, 192]⟩
abbrev S576 : Shape := ⟨1, ![576]⟩
abbrev S6x1x1 : Shape := ⟨3, ![6, 1, 1]⟩
abbrev S169x6 : Shape := ⟨2, ![169, 6]⟩
abbrev S49x49 : Shape := ⟨2, ![49, 49]⟩
abbrev S192x192 : Shape := ⟨2, ![192, 192]⟩
abbrev S192 : Shape := ⟨1, ![192]⟩
abbrev S_ : Shape := ⟨0, ![]⟩

class Facts : Prop where
  bcast_S_S4096x49x192 : S_.BroadcastsInDim S4096x49x192 (![] : Fin 0 → Fin S4096x49x192.rank)
  reducesTo_S4096x49x192_S_d0_1_2 : S4096x49x192.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S576x192 : S_.BroadcastsInDim S576x192 (![] : Fin 0 → Fin S576x192.rank)
  reducesTo_S576x192_S_d0_1 : S576x192.ReducesTo [0, 1] S_
  bcast_S_S576 : S_.BroadcastsInDim S576 (![] : Fin 0 → Fin S576.rank)
  reducesTo_S576_S_d0 : S576.ReducesTo [0] S_
  bcast_S_S6x1x1 : S_.BroadcastsInDim S6x1x1 (![] : Fin 0 → Fin S6x1x1.rank)
  reducesTo_S6x1x1_S_d0_1_2 : S6x1x1.ReducesTo [0, 1, 2] S_
  bcast_S_S169x6 : S_.BroadcastsInDim S169x6 (![] : Fin 0 → Fin S169x6.rank)
  reducesTo_S169x6_S_d0_1 : S169x6.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  main_v38

def fn_part1 {F : FTy → Type} [FloatOps F] (main_arg4 : FVec F S6x1x1 .f32) (main_arg5 : FVec F S169x6 .f32) (main_arg7 : FVec F S192x192 .f32) (main_arg8 : FVec F S192 .f32) (main_v13 : IVec S_ 1) (main_v16 : IVec S576 1) : IVec S_ 1 :=
  let main_c_5 : IVec S_ 1 := constantI S_ 1 1#1
  let main_v17 : IVec S_ 1 := (fun x v => Host.reduce IntOp.andi x v reducesTo_S576_S_d0 h_S_) main_v16 main_c_5
  let main_v18 : IVec S_ 1 := andi main_v13 main_v17
  let main_v19 : FVec F S6x1x1 .f32 := Host.absf main_arg4
  let main_cst_6 : FVec F S_ .f32 := constant S_ .f32 0x7F800000#32
  let main_v20 : FVec F S6x1x1 .f32 := broadcastInDim S6x1x1 ![] bcast_S_S6x1x1 main_cst_6
  let main_v21 : IVec S6x1x1 1 := cmpf .olt main_v19 main_v20
  let main_c_7 : IVec S_ 1 := constantI S_ 1 1#1
  let main_v22 : IVec S_ 1 := (fun x v => Host.reduce IntOp.andi x v reducesTo_S6x1x1_S_d0_1_2 h_S_) main_v21 main_c_7
  let main_v23 : IVec S_ 1 := andi main_v18 main_v22
  let main_v24 : FVec F S169x6 .f32 := Host.absf main_arg5
  let main_cst_8 : FVec F S_ .f32 := constant S_ .f32 0x7F800000#32
  let main_v25 : FVec F S169x6 .f32 := broadcastInDim S169x6 ![] bcast_S_S169x6 main_cst_8
  let main_v26 : IVec S169x6 1 := cmpf .olt main_v24 main_v25
  let main_c_9 : IVec S_ 1 := constantI S_ 1 1#1
  let main_v27 : IVec S_ 1 := (fun x v => Host.reduce IntOp.andi x v reducesTo_S169x6_S_d0_1 h_S_) main_v26 main_c_9
  let main_v28 : IVec S_ 1 := andi main_v23 main_v27
  let main_v29 : FVec F S192x192 .f32 := Host.absf main_arg7
  let main_cst_10 : FVec F S_ .f32 := constant S_ .f32 0x7F800000#32
  let main_v30 : FVec F S192x192 .f32 := broadcastInDim S192x192 ![] bcast_S_S192x192 main_cst_10
  let main_v31 : IVec S192x192 1 := cmpf .olt main_v29 main_v30
  let main_c_11 : IVec S_ 1 := constantI S_ 1 1#1
  let main_v32 : IVec S_ 1 := (fun x v => Host.reduce IntOp.andi x v reducesTo_S192x192_S_d0_1 h_S_) main_v31 main_c_11
  let main_v33 : IVec S_ 1 := andi main_v28 main_v32
  fn_part2 (F := F) main_arg8 main_v33

def fn {F : FTy → Type} [FloatOps F] (main_arg0 : FVec F S4096x49x192 .f32) (main_arg1 : FVec F S64x49x49 .f32) (main_arg2 : FVec F S576x192 .f32) (main_arg3 : FVec F S576 .f32) (main_arg4 : FVec F S6x1x1 .f32) (main_arg5 : FVec F S169x6 .f32) (main_arg6 : IVec S49x49 32) (main_arg7 : FVec F S192x192 .f32) (main_arg8 : FVec F S192 .f32) : IVec S_ 1 :=
  let main_v0 : FVec F S4096x49x192 .f32 := Host.absf main_arg0
  let main_cst : FVec F S_ .f32 := constant S_ .f32 0x7F800000#32
  let main_v1 : FVec F S4096x49x192 .f32 := broadcastInDim S4096x49x192 ![] bcast_S_S4096x49x192 main_cst
  let main_v2 : IVec S4096x49x192 1 := cmpf .olt main_v0 main_v1
  let main_c : IVec S_ 1 := constantI S_ 1 1#1
  let main_v3 : IVec S_ 1 := (fun x v => Host.reduce IntOp.andi x v reducesTo_S4096x49x192_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S576x192 .f32 := Host.absf main_arg2
  let main_cst_2 : FVec F S_ .f32 := constant S_ .f32 0x7F800000#32
  let main_v10 : FVec F S576x192 .f32 := broadcastInDim S576x192 ![] bcast_S_S576x192 main_cst_2
  let main_v11 : IVec S576x192 1 := cmpf .olt main_v9 main_v10
  let main_c_3 : IVec S_ 1 := constantI S_ 1 1#1
  let main_v12 : IVec S_ 1 := (fun x v => Host.reduce IntOp.andi x v reducesTo_S576x192_S_d0_1 h_S_) main_v11 main_c_3
  let main_v13 : IVec S_ 1 := andi main_v8 main_v12
  let main_v14 : FVec F S576 .f32 := Host.absf main_arg3
  let main_cst_4 : FVec F S_ .f32 := constant S_ .f32 0x7F800000#32
  let main_v15 : FVec F S576 .f32 := broadcastInDim S576 ![] bcast_S_S576 main_cst_4
  let main_v16 : IVec S576 1 := cmpf .olt main_v14 main_v15
  fn_part1 (F := F) main_arg4 main_arg5 main_arg7 main_arg8 main_v13 main_v16
-- ==== Kernel.lean ====
abbrev S4096x49x192 : Shape := ⟨3, ![4096, 49, 192]⟩
abbrev S64x49x49 : Shape := ⟨3, ![64, 49, 49]⟩
abbrev S576x192 : Shape := ⟨2, ![576, 192]⟩
abbrev S576 : Shape := ⟨1, ![576]⟩
abbrev S6x1x1 : Shape := ⟨3, ![6, 1, 1]⟩
abbrev S169x6 : Shape := ⟨2, ![169, 6]⟩
abbrev S49x49 : Shape := ⟨2, ![49, 49]⟩
abbrev S192x192 : Shape := ⟨2, ![192, 192]⟩
abbrev S192 : Shape := ⟨1, ![192]⟩
abbrev S2401 : Shape := ⟨1, ![2401]⟩
abbrev S_ : Shape := ⟨0, ![]⟩
abbrev S2401x1 : Shape := ⟨2, ![2401, 1]⟩
abbrev S2401x6 : Shape := ⟨2, ![2401, 6]⟩
abbrev S49x49x6 : Shape := ⟨3, ![49, 49, 6]⟩
abbrev S6x49x49 : Shape := ⟨3, ![6, 49, 49]⟩
abbrev S6 : Shape := ⟨1, ![6]⟩
abbrev S192x576 : Shape := ⟨2, ![192, 576]⟩
abbrev S32x49x192 : Shape := ⟨3, ![32, 49, 192]⟩
abbrev S32x49x49 : Shape := ⟨3, ![32, 49, 49]⟩
abbrev S1568x192 : Shape := ⟨2, ![1568, 192]⟩
abbrev S1568x576 : Shape := ⟨2, ![1568, 576]⟩
abbrev S1x576 : Shape := ⟨2, ![1, 576]⟩
abbrev S32x49x3x6x32 : Shape := ⟨5, ![32, 49, 3, 6, 32]⟩
abbrev S3x32x6x49x32 : Shape := ⟨5, ![3, 32, 6, 49, 32]⟩
abbrev S1x32x6x49x32 : Shape := ⟨5, ![1, 32, 6, 49, 32]⟩
abbrev S32x6x49x32 : Shape := ⟨4, ![32, 6, 49, 32]⟩
abbrev S32x6x49 : Shape := ⟨3, ![32, 6, 49]⟩
abbrev S32x6x49x1 : Shape := ⟨4, ![32, 6, 49, 1]⟩
abbrev S192x49x32 : Shape := ⟨3, ![192, 49, 32]⟩
abbrev S192x49x49 : Shape := ⟨3, ![192, 49, 49]⟩
abbrev S32x6x49x49 : Shape := ⟨4, ![32, 6, 49, 49]⟩
abbrev S1x6x1x1 : Shape := ⟨4, ![1, 6, 1, 1]⟩
abbrev S1x6x49x49 : Shape := ⟨4, ![1, 6, 49, 49]⟩
abbrev S32x1x49x49 : Shape := ⟨4, ![32, 1, 49, 49]⟩
abbrev S32x49x6x32 : Shape := ⟨4, ![32, 49, 6, 32]⟩
abbrev S1x192 : Shape := ⟨2, ![1, 192]⟩

abbrev nBuf : Space → Nat
  | .hbm => 29
  | .vmem => 12
  | .smem => 0
  | _ => 0

abbrev bufTy : (tb : Table) → Fin (tcTables nBuf tb) → BufTy
  | .hbm, ⟨0, _⟩ => ⟨S4096x49x192, .f32⟩
  | .hbm, ⟨1, _⟩ => ⟨S64x49x49, .f32⟩
  | .hbm, ⟨2, _⟩ => ⟨S576x192, .f32⟩
  | .hbm, ⟨3, _⟩ => ⟨S576, .f32⟩
  | .hbm, ⟨4, _⟩ => ⟨S6x1x1, .f32⟩
  | .hbm, ⟨5, _⟩ => ⟨S169x6, .f32⟩
  | .hbm, ⟨6, _⟩ => ⟨S49x49, .i32⟩
  | .hbm, ⟨7, _⟩ => ⟨S192x192, .f32⟩
  | .hbm, ⟨8, _⟩ => ⟨S192, .f32⟩
  | .hbm, ⟨9, _⟩ => ⟨S2401, .i32⟩
  | .hbm, ⟨10, _⟩ => ⟨S_, .i32⟩
  | .hbm, ⟨11, _⟩ => ⟨S2401, .i32⟩
  | .hbm, ⟨12, _⟩ => ⟨S2401, .i1⟩
  | .hbm, ⟨13, _⟩ => ⟨S_, .i32⟩
  | .hbm, ⟨14, _⟩ => ⟨S2401, .i32⟩
  | .hbm, ⟨15, _⟩ => ⟨S2401, .i32⟩
  | .hbm, ⟨16, _⟩ => ⟨S2401, .i32⟩
  | .hbm, ⟨17, _⟩ => ⟨S2401x1, .i32⟩
  | .hbm, ⟨18, _⟩ => ⟨S2401x6, .f32⟩
  | .hbm, ⟨19, _⟩ => ⟨S49x49x6, .f32⟩
  | .hbm, ⟨20, _⟩ => ⟨S6x49x49, .f32⟩
  | .hbm, ⟨21, _⟩ => ⟨S_, .f32⟩
  | .hbm, ⟨22, _⟩ => ⟨S6x1x1, .f32⟩
  | .hbm, ⟨23, _⟩ => ⟨S6x1x1, .f32⟩
  | .hbm, ⟨24, _⟩ => ⟨S6x1x1, .f32⟩
  | .hbm, ⟨25, _⟩ => ⟨S6, .f32⟩
  | .hbm, ⟨26, _⟩ => ⟨S192x576, .f32⟩
  | .hbm, ⟨27, _⟩ => ⟨S192x192, .f32⟩
  | .hbm, ⟨28, _⟩ => ⟨S4096x49x192, .f32⟩
  | .local _ .vmem, ⟨0, _⟩ => ⟨S32x49x192, .f32⟩
  | .local _ .vmem, ⟨1, _⟩ => ⟨S32x49x192, .f32⟩
  | .local _ .vmem, ⟨2, _⟩ => ⟨S192x576, .f32⟩
  | .local _ .vmem, ⟨3, _⟩ => ⟨S576, .f32⟩
  | .local _ .vmem, ⟨4, _⟩ => ⟨S6, .f32⟩
  | .local _ .vmem, ⟨5, _⟩ => ⟨S6x49x49, .f32⟩
  | .local _ .vmem, ⟨6, _⟩ => ⟨S32x49x49, .f32⟩
  | .local _ .vmem, ⟨7, _⟩ => ⟨S32x49x49, .f32⟩
  | .local _ .vmem, ⟨8, _⟩ => ⟨S192x192, .f32⟩
  | .local _ .vmem, ⟨9, _⟩ => ⟨S192, .f32⟩
  | .local _ .vmem, ⟨10, _⟩ => ⟨S32x49x192, .f32⟩
  | .local _ .vmem, ⟨11, _⟩ => ⟨S32x49x192, .f32⟩
  | _, _ => ⟨S4096x49x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x49x49 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x49x49 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S192x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x49x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x6_S49x49x6 : S2401x6.ShapeCasts S49x49x6
  transposes_S49x49x6_S6x49x49_2_0_1 : S49x49x6.Transposes [2, 0, 1] S6x49x49
  bcast_S_S6x1x1 : S_.BroadcastsInDim S6x1x1 (![] : Fin 0 → Fin S6x1x1.rank)
  shapeCasts_S6x1x1_S6 : S6x1x1.ShapeCasts S6
  transposes_S576x192_S192x576_1_0 : S576x192.Transposes [1, 0] S192x576
  transposes_S192x192_S192x192_1_0 : S192x192.Transposes [1, 0] S192x192
  inb_S32x49x192_S32x49x192_0_0_0 : ∀ a, (![0, 0, 0] : Fin 3 → Nat) a + S32x49x192.size a ≤ S32x49x192.size a
  h_S32x49x192 : 0 < S32x49x192.numel
  bitsLt_bf16_f32 : FTy.bits .bf16 < FTy.bits .f32
  inb_S192x576_S192x576_0_0 : ∀ a, (![0, 0] : Fin 2 → Nat) a + S192x576.size a ≤ S192x576.size a
  h_S192x576 : 0 < S192x576.numel
  shapeCasts_S192x576_S192x576 : S192x576.ShapeCasts S192x576
  shapeCasts_S32x49x192_S1568x192 : S32x49x192.ShapeCasts S1568x192
  inb_S576_S576_0 : ∀ a, (![0] : Fin 1 → Nat) a + S576.size a ≤ S576.size a
  h_S576 : 0 < S576.numel
  shapeCasts_S576_S1x576 : S576.ShapeCasts S1x576
  broadcasts_S1x576_S1568x576 : S1x576.Broadcasts S1568x576
  shapeCasts_S1568x576_S32x49x3x6x32 : S1568x576.ShapeCasts S32x49x3x6x32
  transposes_S32x49x3x6x32_p2_0_3_1_4_S3x32x6x49x32 : S32x49x3x6x32.Transposes [2, 0, 3, 1, 4] S3x32x6x49x32
  slices_S3x32x6x49x32_o0_0_0_0_0_S1x32x6x49x32 : S3x32x6x49x32.Slices ![0, 0, 0, 0, 0] S1x32x6x49x32
  shapeCasts_S1x32x6x49x32_S32x6x49x32 : S1x32x6x49x32.ShapeCasts S32x6x49x32
  slices_S3x32x6x49x32_o1_0_0_0_0_S1x32x6x49x32 : S3x32x6x49x32.Slices ![1, 0, 0, 0, 0] S1x32x6x49x32
  slices_S3x32x6x49x32_o2_0_0_0_0_S1x32x6x49x32 : S3x32x6x49x32.Slices ![2, 0, 0, 0, 0] S1x32x6x49x32
  reduces_S32x6x49x32_S32x6x49 : S32x6x49x32.Reduces [3] S32x6x49
  shapeCasts_S32x6x49_S32x6x49x1 : S32x6x49.ShapeCasts S32x6x49x1
  broadcasts_S32x6x49x1_S32x6x49x32 : S32x6x49x1.Broadcasts S32x6x49x32
  shapeCasts_S32x6x49x32_S192x49x32 : S32x6x49x32.ShapeCasts S192x49x32
  shapeCasts_S192x49x49_S32x6x49x49 : S192x49x49.ShapeCasts S32x6x49x49
  inb_S6_S6_0 : ∀ a, (![0] : Fin 1 → Nat) a + S6.size a ≤ S6.size a
  h_S6 : 0 < S6.numel
  shapeCasts_S6_S6 : S6.ShapeCasts S6
  shapeCasts_S6_S1x6x1x1 : S6.ShapeCasts S1x6x1x1
  inb_S6x49x49_S6x49x49_0_0_0 : ∀ a, (![0, 0, 0] : Fin 3 → Nat) a + S6x49x49.size a ≤ S6x49x49.size a
  h_S6x49x49 : 0 < S6x49x49.numel
  shapeCasts_S6x49x49_S6x49x49 : S6x49x49.ShapeCasts S6x49x49
  shapeCasts_S6x49x49_S1x6x49x49 : S6x49x49.ShapeCasts S1x6x49x49
  inb_S32x49x49_S32x49x49_0_0_0 : ∀ a, (![0, 0, 0] : Fin 3 → Nat) a + S32x49x49.size a ≤ S32x49x49.size a
  h_S32x49x49 : 0 < S32x49x49.numel
  shapeCasts_S32x49x49_S32x1x49x49 : S32x49x49.ShapeCasts S32x1x49x49
  broadcasts_S1x6x1x1_S32x6x49x49 : S1x6x1x1.Broadcasts S32x6x49x49
  broadcasts_S1x6x49x49_S32x6x49x49 : S1x6x49x49.Broadcasts S32x6x49x49
  broadcasts_S32x1x49x49_S32x6x49x49 : S32x1x49x49.Broadcasts S32x6x49x49
  reduces_S32x6x49x49_S32x6x49 : S32x6x49x49.Reduces [3] S32x6x49
  broadcasts_S32x6x49x1_S32x6x49x49 : S32x6x49x1.Broadcasts S32x6x49x49
  shapeCasts_S32x6x49x49_S192x49x49 : S32x6x49x49.ShapeCasts S192x49x49
  shapeCasts_S192x49x32_S32x6x49x32 : S192x49x32.ShapeCasts S32x6x49x32
  transposes_S32x6x49x32_p0_2_1_3_S32x49x6x32 : S32x6x49x32.Transposes [0, 2, 1, 3] S32x49x6x32
  shapeCasts_S32x49x6x32_S1568x192 : S32x49x6x32.ShapeCasts S1568x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S192_S192_0 : ∀ a, (![0] : Fin 1 → Nat) a + S192.size a ≤ S192.size a
  h_S192 : 0 < S192.numel
  shapeCasts_S192_S1x192 : S192.ShapeCasts S1x192
  broadcasts_S1x192_S1568x192 : S1x192.Broadcasts S1568x192
  shapeCasts_S1568x192_S32x49x192 : S1568x192.ShapeCasts S32x49x192
  gather_S169x6_S2401x1_S2401x6_1_0_n_n_0_1_16_wf : GatherDims.WF S169x6 S2401x1 S2401x6 [1] [0] [] [0] [] 1 ![1, 6]
  dot_S1568x192_S192x576_S1568x576_1_0_0_1_n_n_wf : DotDims.WF S1568x192 S192x576 S1568x576 [1] [0] [0] [1] [] []
  dot_S192x49x32_S192x49x32_S192x49x49_2_2_1_1_0_0_wf : DotDims.WF S192x49x32 S192x49x32 S192x49x49 [2] [2] [1] [1] [0] [0]
  dot_S192x49x49_S192x49x32_S192x49x32_2_1_1_2_0_0_wf : DotDims.WF S192x49x49 S192x49x32 S192x49x32 [2] [1] [1] [2] [0] [0]
  dot_S1568x192_S192x192_S1568x192_1_0_0_1_n_n_wf : DotDims.WF S1568x192 S192x192 S1568x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x192.size a ≤ S4096x49x192.size a
  hwx0_0 : ∀ i : grid0.Coords, EltTy.bits .f32 = 32 ∨ (Rect.block (s := S4096x49x192) S32x49x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x576.size a ≤ S192x576.size a
  hwx0_1 : ∀ i : grid0.Coords, EltTy.bits .f32 = 32 ∨ (Rect.block (s := S192x576) S192x576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S576.size a ≤ S576.size a
  hwx0_2 : ∀ i : grid0.Coords, EltTy.bits .f32 = 32 ∨ (Rect.block (s := S576) S576.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6.size a ≤ S6.size a
  hwx0_3 : ∀ i : grid0.Coords, EltTy.bits .f32 = 32 ∨ (Rect.block (s := S6) S6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x49x49.size a ≤ S6x49x49.size a
  hwx0_4 : ∀ i : grid0.Coords, EltTy.bits .f32 = 32 ∨ (Rect.block (s := S6x49x49) S6x49x49.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x49x49.size a ≤ S64x49x49.size a
  hwx0_5 : ∀ i : grid0.Coords, EltTy.bits .f32 = 32 ∨ (Rect.block (s := S64x49x49) S32x49x49.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x192.size a ≤ S192x192.size a
  hwx0_6 : ∀ i : grid0.Coords, EltTy.bits .f32 = 32 ∨ (Rect.block (s := S192x192) S192x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192.size a ≤ S192.size a
  hwx0_7 : ∀ i : grid0.Coords, EltTy.bits .f32 = 32 ∨ (Rect.block (s := S192) S192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x49x192.size a ≤ S4096x49x192.size a
  hwx0_8 : ∀ i : grid0.Coords, EltTy.bits .f32 = 32 ∨ (Rect.block (s := S4096x49x192) S32x49x192.size (cc0_transform_8 i) (hinb0_8 i)).WholeWords (EltTy.packing .f32)

variable [Facts₀]

def gather_S169x6_S2401x1_S2401x6_1_0_n_n_0_1_16 : GatherDims S169x6 S2401x1 S2401x6 where
  offsetDims := [1]
  collapsedSliceDims := [0]
  operandBatchingDims := []
  startIndicesBatchingDims := []
  startIndexMap := [0]
  indexVectorDim := 1
  sliceSizes := ![1, 6]
  wf := gather_S169x6_S2401x1_S2401x6_1_0_n_n_0_1_16_wf
def dot_S1568x192_S192x576_S1568x576_1_0_0_1_n_n : DotDims S1568x192 S192x576 S1568x576 where
  lhsContracting := [1]
  rhsContracting := [0]
  lhsNonContracting := [0]
  rhsNonContracting := [1]
  lhsBatch := []
  rhsBatch := []
  wf := dot_S1568x192_S192x576_S1568x576_1_0_0_1_n_n_wf
def dot_S192x49x32_S192x49x32_S192x49x49_2_2_1_1_0_0 : DotDims S192x49x32 S192x49x32 S192x49x49 where
  lhsContracting := [2]
  rhsContracting := [2]
  lhsNonContracting := [1]
  rhsNonContracting := [1]
  lhsBatch := [0]
  rhsBatch := [0]
  wf := dot_S192x49x32_S192x49x32_S192x49x49_2_2_1_1_0_0_wf
def dot_S192x49x49_S192x49x32_S192x49x32_2_1_1_2_0_0 : DotDims S192x49x49 S192x49x32 S192x49x32 where
  lhsContracting := [2]
  rhsContracting := [1]
  lhsNonContracting := [1]
  rhsNonContracting := [2]
  lhsBatch := [0]
  rhsBatch := [0]
  wf := dot_S192x49x49_S192x49x32_S192x49x32_2_1_1_2_0_0_wf
def dot_S1568x192_S192x192_S1568x192_1_0_0_1_n_n : DotDims S1568x192 S192x192 S1568x192 where
  lhsContracting := [1]
  rhsContracting := [0]
  lhsNonContracting := [0]
  rhsNonContracting := [1]
  lhsBatch := []
  rhsBatch := []
  wf := dot_S1568x192_S192x192_S1568x192_1_0_0_1_n_n_wf

abbrev win0_0 : Pipeline.Window sig grid0 :=
  Pipeline.Window.ofSpec (Memref.whole main_arg0) S32x49x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S192x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S576.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S6x49x49.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S32x49x49.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S192x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S32x49x192.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x49x192 : Shape := ⟨3, ![4096, 49, 192]⟩
abbrev S64x49x49 : Shape := ⟨3, ![64, 49, 49]⟩
abbrev S576x192 : Shape := ⟨2, ![576, 192]⟩
abbrev S576 : Shape := ⟨1, ![576]⟩
abbrev S6x1x1 : Shape := ⟨3, ![6, 1, 1]⟩
abbrev S169x6 : Shape := ⟨2, ![169, 6]⟩
abbrev S49x49 : Shape := ⟨2, ![49, 49]⟩
abbrev S192x192 : Shape := ⟨2, ![192, 192]⟩
abbrev S192 : Shape := ⟨1, ![192]⟩
abbrev S4096x49x576 : Shape := ⟨3, ![4096, 49, 576]⟩
abbrev S1x1x576 : Shape := ⟨3, ![1, 1, 576]⟩
abbrev S4096x49x3x6x32 : Shape := ⟨5, ![4096, 49, 3, 6, 32]⟩
abbrev S3x4096x6x49x32 : Shape := ⟨5, ![3, 4096, 6, 49, 32]⟩
abbrev S1x4096x6x49x32 : Shape := ⟨5, ![1, 4096, 6, 49, 32]⟩
abbrev S4096x6x49x32 : Shape := ⟨4, ![4096, 6, 49, 32]⟩
abbrev S_ : Shape := ⟨0, ![]⟩
abbrev S4096x6x49 : Shape := ⟨3, ![4096, 6, 49]⟩
abbrev S4096x6x49x1 : Shape := ⟨4, ![4096, 6, 49, 1]⟩
abbrev S4096x6x49x49 : Shape := ⟨4, ![4096, 6, 49, 49]⟩
abbrev S1x6x1x1 : Shape := ⟨4, ![1, 6, 1, 1]⟩
abbrev S2401 : Shape := ⟨1, ![2401]⟩
abbrev S2401x1 : Shape := ⟨2, ![2401, 1]⟩
abbrev S2401x6 : Shape := ⟨2, ![2401, 6]⟩
abbrev S49x49x6 : Shape := ⟨3, ![49, 49, 6]⟩
abbrev S6x49x49 : Shape := ⟨3, ![6, 49, 49]⟩
abbrev S1x6x49x49 : Shape := ⟨4, ![1, 6, 49, 49]⟩
abbrev S64x64x6x49x49 : Shape := ⟨5, ![64, 64, 6, 49, 49]⟩
abbrev S1x64x1x49x49 : Shape := ⟨5, ![1, 64, 1, 49, 49]⟩
abbrev S4096x49x6x32 : Shape := ⟨4, ![4096, 49, 6, 32]⟩
abbrev S1x1x192 : Shape := ⟨3, ![1, 1, 192]⟩

abbrev nBuf : Space → Nat
  | .hbm => 90
  | .vmem => 0
  | .smem => 0
  | _ => 0

abbrev bufTy : (tb : Table) → Fin (tcTables nBuf tb) → BufTy
  | .hbm, ⟨0, _⟩ => ⟨S4096x49x192, .f32⟩
  | .hbm, ⟨1, _⟩ => ⟨S64x49x49, .f32⟩
  | .hbm, ⟨2, _⟩ => ⟨S576x192, .f32⟩
  | .hbm, ⟨3, _⟩ => ⟨S576, .f32⟩
  | .hbm, ⟨4, _⟩ => ⟨S6x1x1, .f32⟩
  | .hbm, ⟨5, _⟩ => ⟨S169x6, .f32⟩
  | .hbm, ⟨6, _⟩ => ⟨S49x49, .i32⟩
  | .hbm, ⟨7, _⟩ => ⟨S192x192, .f32⟩
  | .hbm, ⟨8, _⟩ => ⟨S192, .f32⟩
  | .hbm, ⟨9, _⟩ => ⟨S4096x49x576, .f32⟩
  | .hbm, ⟨10, _⟩ => ⟨S1x1x576, .f32⟩
  | .hbm, ⟨11, _⟩ => ⟨S4096x49x576, .f32⟩
  | .hbm, ⟨12, _⟩ => ⟨S4096x49x576, .f32⟩
  | .hbm, ⟨13, _⟩ => ⟨S4096x49x3x6x32, .f32⟩
  | .hbm, ⟨14, _⟩ => ⟨S3x4096x6x49x32, .f32⟩
  | .hbm, ⟨15, _⟩ => ⟨S1x4096x6x49x32, .f32⟩
  | .hbm, ⟨16, _⟩ => ⟨S4096x6x49x32, .f32⟩
  | .hbm, ⟨17, _⟩ => ⟨S1x4096x6x49x32, .f32⟩
  | .hbm, ⟨18, _⟩ => ⟨S4096x6x49x32, .f32⟩
  | .hbm, ⟨19, _⟩ => ⟨S1x4096x6x49x32, .f32⟩
  | .hbm, ⟨20, _⟩ => ⟨S4096x6x49x32, .f32⟩
  | .hbm, ⟨21, _⟩ => ⟨S4096x6x49x32, .f32⟩
  | .hbm, ⟨22, _⟩ => ⟨S_, .f32⟩
  | .hbm, ⟨23, _⟩ => ⟨S4096x6x49, .f32⟩
  | .hbm, ⟨24, _⟩ => ⟨S4096x6x49x1, .f32⟩
  | .hbm, ⟨25, _⟩ => ⟨S4096x6x49x1, .f32⟩
  | .hbm, ⟨26, _⟩ => ⟨S_, .f32⟩
  | .hbm, ⟨27, _⟩ => ⟨S4096x6x49x1, .f32⟩
  | .hbm, ⟨28, _⟩ => ⟨S4096x6x49x1, .f32⟩
  | .hbm, ⟨29, _⟩ => ⟨S4096x6x49x32, .f32⟩
  | .hbm, ⟨30, _⟩ => ⟨S4096x6x49x32, .f32⟩
  | .hbm, ⟨31, _⟩ => ⟨S4096x6x49x32, .f32⟩
  | .hbm, ⟨32, _⟩ => ⟨S_, .f32⟩
  | .hbm, ⟨33, _⟩ => ⟨S4096x6x49, .f32⟩
  | .hbm, ⟨34, _⟩ => ⟨S4096x6x49x1, .f32⟩
  | .hbm, ⟨35, _⟩ => ⟨S4096x6x49x1, .f32⟩
  | .hbm, ⟨36, _⟩ => ⟨S_, .f32⟩
  | .hbm, ⟨37, _⟩ => ⟨S4096x6x49x1, .f32⟩
  | .hbm, ⟨38, _⟩ => ⟨S4096x6x49x1, .f32⟩
  | .hbm, ⟨39, _⟩ => ⟨S4096x6x49x32, .f32⟩
  | .hbm, ⟨40, _⟩ => ⟨S4096x6x49x32, .f32⟩
  | .hbm, ⟨41, _⟩ => ⟨S4096x6x49x49, .f32⟩
  | .hbm, ⟨42, _⟩ => ⟨S_, .f32⟩
  | .hbm, ⟨43, _⟩ => ⟨S6x1x1, .f32⟩
  | .hbm, ⟨44, _⟩ => ⟨S6x1x1, .f32⟩
  | .hbm, ⟨45, _⟩ => ⟨S6x1x1, .f32⟩
  | .hbm, ⟨46, _⟩ => ⟨S1x6x1x1, .f32⟩
  | .hbm, ⟨47, _⟩ => ⟨S4096x6x49x49, .f32⟩
  | .hbm, ⟨48, _⟩ => ⟨S4096x6x49x49, .f32⟩
  | .hbm, ⟨49, _⟩ => ⟨S2401, .i32⟩
  | .hbm, ⟨50, _⟩ => ⟨S_, .i32⟩
  | .hbm, ⟨51, _⟩ => ⟨S2401, .i32⟩
  | .hbm, ⟨52, _⟩ => ⟨S2401, .i1⟩
  | .hbm, ⟨53, _⟩ => ⟨S_, .i32⟩
  | .hbm, ⟨54, _⟩ => ⟨S2401, .i32⟩
  | .hbm, ⟨55, _⟩ => ⟨S2401, .i32⟩
  | .hbm, ⟨56, _⟩ => ⟨S2401, .i32⟩
  | .hbm, ⟨57, _⟩ => ⟨S2401x1, .i32⟩
  | .hbm, ⟨58, _⟩ => ⟨S2401x6, .f32⟩
  | .hbm, ⟨59, _⟩ => ⟨S49x49x6, .f32⟩
  | .hbm, ⟨60, _⟩ => ⟨S6x49x49, .f32⟩
  | .hbm, ⟨61, _⟩ => ⟨S1x6x49x49, .f32⟩
  | .hbm, ⟨62, _⟩ => ⟨S4096x6x49x49, .f32⟩
  | .hbm, ⟨63, _⟩ => ⟨S4096x6x49x49, .f32⟩
  | .hbm, ⟨64, _⟩ => ⟨S64x64x6x49x49, .f32⟩
  | .hbm, ⟨65, _⟩ => ⟨S1x64x1x49x49, .f32⟩
  | .hbm, ⟨66, _⟩ => ⟨S64x64x6x49x49, .f32⟩
  | .hbm, ⟨67, _⟩ => ⟨S64x64x6x49x49, .f32⟩
  | .hbm, ⟨68, _⟩ => ⟨S4096x6x49x49, .f32⟩
  | .hbm, ⟨69, _⟩ => ⟨S_, .f32⟩
  | .hbm, ⟨70, _⟩ => ⟨S4096x6x49, .f32⟩
  | .hbm, ⟨71, _⟩ => ⟨S_, .f32⟩
  | .hbm, ⟨72, _⟩ => ⟨S4096x6x49, .f32⟩
  | .hbm, ⟨73, _⟩ => ⟨S4096x6x49, .f32⟩
  | .hbm, ⟨74, _⟩ => ⟨S4096x6x49x1, .f32⟩
  | .hbm, ⟨75, _⟩ => ⟨S4096x6x49x49, .f32⟩
  | .hbm, ⟨76, _⟩ => ⟨S4096x6x49x49, .f32⟩
  | .hbm, ⟨77, _⟩ => ⟨S4096x6x49x49, .f32⟩
  | .hbm, ⟨78, _⟩ => ⟨S_, .f32⟩
  | .hbm, ⟨79, _⟩ => ⟨S4096x6x49, .f32⟩
  | .hbm, ⟨80, _⟩ => ⟨S4096x6x49x1, .f32⟩
  | .hbm, ⟨81, _⟩ => ⟨S4096x6x49x49, .f32⟩
  | .hbm, ⟨82, _⟩ => ⟨S4096x6x49x49, .f32⟩
  | .hbm, ⟨83, _⟩ => ⟨S4096x6x49x32, .f32⟩
  | .hbm, ⟨84, _⟩ => ⟨S4096x49x6x32, .f32⟩
  | .hbm, ⟨85, _⟩ => ⟨S4096x49x192, .f32⟩
  | .hbm, ⟨86, _⟩ => ⟨S4096x49x192, .f32⟩
  | .hbm, ⟨87, _⟩ => ⟨S1x1x192, .f32⟩
  | .hbm, ⟨88, _⟩ => ⟨S4096x49x192, .f32⟩
  | .hbm, ⟨89, _⟩ => ⟨S4096x49x192, .f32⟩
  | _, _ => ⟨S4096x49x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c : Ref sig .tc := ⟨.hbm, 50, rfl⟩
abbrev main_v30 : Ref sig .tc := ⟨.hbm, 51, rfl⟩
abbrev main_v31 : Ref sig .tc := ⟨.hbm, 52, rfl⟩
abbrev main_c_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  bcast_S576_S1x1x576_2 : S576.BroadcastsInDim S1x1x576 (![2] : Fin 1 → Fin S1x1x576.rank)
  bcast_S1x1x576_S4096x49x576_0_1_2 : S1x1x576.BroadcastsInDim S4096x49x576 (![0, 1, 2] : Fin 3 → Fin S4096x49x576.rank)
  shapeCasts_S4096x49x576_S4096x49x3x6x32 : S4096x49x576.ShapeCasts S4096x49x3x6x32
  transposes_S4096x49x3x6x32_S3x4096x6x49x32_2_0_3_1_4 : S4096x49x3x6x32.Transposes [2, 0, 3, 1, 4] S3x4096x6x49x32
  slices_S3x4096x6x49x32_S1x4096x6x49x32_0_0_0_0_0 : S3x4096x6x49x32.Slices ![0, 0, 0, 0, 0] S1x4096x6x49x32
  shapeCasts_S1x4096x6x49x32_S4096x6x49x32 : S1x4096x6x49x32.ShapeCasts S4096x6x49x32
  slices_S3x4096x6x49x32_S1x4096x6x49x32_1_0_0_0_0 : S3x4096x6x49x32.Slices ![1, 0, 0, 0, 0] S1x4096x6x49x32
  slices_S3x4096x6x49x32_S1x4096x6x49x32_2_0_0_0_0 : S3x4096x6x49x32.Slices ![2, 0, 0, 0, 0] S1x4096x6x49x32
  reducesTo_S4096x6x49x32_S4096x6x49_d3 : S4096x6x49x32.ReducesTo [3] S4096x6x49
  h_S_ : 0 < S_.numel
  bcast_S4096x6x49_S4096x6x49x1_0_1_2 : S4096x6x49.BroadcastsInDim S4096x6x49x1 (![0, 1, 2] : Fin 3 → Fin S4096x6x49x1.rank)
  bcast_S_S4096x6x49x1 : S_.BroadcastsInDim S4096x6x49x1 (![] : Fin 0 → Fin S4096x6x49x1.rank)
  bcast_S4096x6x49x1_S4096x6x49x32_0_1_2_3 : S4096x6x49x1.BroadcastsInDim S4096x6x49x32 (![0, 1, 2, 3] : Fin 4 → Fin S4096x6x49x32.rank)
  bcast_S_S6x1x1 : S_.BroadcastsInDim S6x1x1 (![] : Fin 0 → Fin S6x1x1.rank)
  bcast_S6x1x1_S1x6x1x1_1_2_3 : S6x1x1.BroadcastsInDim S1x6x1x1 (![1, 2, 3] : Fin 3 → Fin S1x6x1x1.rank)
  bcast_S1x6x1x1_S4096x6x49x49_0_1_2_3 : S1x6x1x1.BroadcastsInDim S4096x6x49x49 (![0, 1, 2, 3] : Fin 4 → Fin S4096x6x49x49.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x6_S49x49x6 : S2401x6.ShapeCasts S49x49x6
  transposes_S49x49x6_S6x49x49_2_0_1 : S49x49x6.Transposes [2, 0, 1] S6x49x49
  bcast_S6x49x49_S1x6x49x49_1_2_3 : S6x49x49.BroadcastsInDim S1x6x49x49 (![1, 2, 3] : Fin 3 → Fin S1x6x49x49.rank)
  bcast_S1x6x49x49_S4096x6x49x49_0_1_2_3 : S1x6x49x49.BroadcastsInDim S4096x6x49x49 (![0, 1, 2, 3] : Fin 4 → Fin S4096x6x49x49.rank)
  shapeCasts_S4096x6x49x49_S64x64x6x49x49 : S4096x6x49x49.ShapeCasts S64x64x6x49x49
  bcast_S64x49x49_S1x64x1x49x49_1_3_4 : S64x49x49.BroadcastsInDim S1x64x1x49x49 (![1, 3, 4] : Fin 3 → Fin S1x64x1x49x49.rank)
  bcast_S1x64x1x49x49_S64x64x6x49x49_0_1_2_3_4 : S1x64x1x49x49.BroadcastsInDim S64x64x6x49x49 (![0, 1, 2, 3, 4] : Fin 5 → Fin S64x64x6x49x49.rank)
  shapeCasts_S64x64x6x49x49_S4096x6x49x49 : S64x64x6x49x49.ShapeCasts S4096x6x49x49
  reducesTo_S4096x6x49x49_S4096x6x49_d3 : S4096x6x49x49.ReducesTo [3] S4096x6x49
  bcast_S_S4096x6x49 : S_.BroadcastsInDim S4096x6x49 (![] : Fin 0 → Fin S4096x6x49.rank)
  bcast_S4096x6x49x1_S4096x6x49x49_0_1_2_3 : S4096x6x49x1.BroadcastsInDim S4096x6x49x49 (![0, 1, 2, 3] : Fin 4 → Fin S4096x6x49x49.rank)
  transposes_S4096x6x49x32_S4096x49x6x32_0_2_1_3 : S4096x6x49x32.Transposes [0, 2, 1, 3] S4096x49x6x32
  shapeCasts_S4096x49x6x32_S4096x49x192 : S4096x49x6x32.ShapeCasts S4096x49x192
  bcast_S192_S1x1x192_2 : S192.BroadcastsInDim S1x1x192 (![2] : Fin 1 → Fin S1x1x192.rank)
  bcast_S1x1x192_S4096x49x192_0_1_2 : S1x1x192.BroadcastsInDim S4096x49x192 (![0, 1, 2] : Fin 3 → Fin S4096x49x192.rank)
  dot_S4096x49x192_S576x192_S4096x49x576_2_1_01_0_n_n_wf : DotDims.WF S4096x49x192 S576x192 S4096x49x576 [2] [1] [0, 1] [0] [] []
  dot_S4096x6x49x32_S4096x6x49x32_S4096x6x49x49_3_3_2_2_01_01_wf : DotDims.WF S4096x6x49x32 S4096x6x49x32 S4096x6x49x49 [3] [3] [2] [2] [0, 1] [0, 1]
  gather_S169x6_S2401x1_S2401x6_1_0_n_n_0_1_16_wf : GatherDims.WF S169x6 S2401x1 S2401x6 [1] [0] [] [0] [] 1 ![1, 6]
  dot_S4096x6x49x49_S4096x6x49x32_S4096x6x49x32_3_2_2_3_01_01_wf : DotDims.WF S4096x6x49x49 S4096x6x49x32 S4096x6x49x32 [3] [2] [2] [3] [0, 1] [0, 1]
  dot_S4096x49x192_S192x192_S4096x49x192_2_1_01_0_n_n_wf : DotDims.WF S4096x49x192 S192x192 S4096x49x192 [2] [1] [0, 1] [0] [] []

variable [Facts₀]

def dot_S4096x49x192_S576x192_S4096x49x576_2_1_01_0_n_n : DotDims S4096x49x192 S576x192 S4096x49x576 where
  lhsContracting := [2]
  rhsContracting := [1]
  lhsNonContracting := [0, 1]
  rhsNonContracting := [0]
  lhsBatch := []
  rhsBatch := []
  wf := dot_S4096x49x192_S576x192_S4096x49x576_2_1_01_0_n_n_wf
def dot_S4096x6x49x32_S4096x6x49x32_S4096x6x49x49_3_3_2_2_01_01 : DotDims S4096x6x49x32 S4096x6x49x32 S4096x6x49x49 where
  lhsContracting := [3]
  rhsContracting := [3]
  lhsNonContracting := [2]
  rhsNonContracting := [2]
  lhsBatch := [0, 1]
  rhsBatch := [0, 1]
  wf := dot_S4096x6x49x32_S4096x6x49x32_S4096x6x49x49_3_3_2_2_01_01_wf
def gather_S169x6_S2401x1_S2401x6_1_0_n_n_0_1_16 : GatherDims S169x6 S2401x1 S2401x6 where
  offsetDims := [1]
  collapsedSliceDims := [0]
  operandBatchingDims := []
  startIndicesBatchingDims := []
  startIndexMap := [0]
  indexVectorDim := 1
  sliceSizes := ![1, 6]
  wf := gather_S169x6_S2401x1_S2401x6_1_0_n_n_0_1_16_wf
def dot_S4096x6x49x49_S4096x6x49x32_S4096x6x49x32_3_2_2_3_01_01 : DotDims S4096x6x49x49 S4096x6x49x32 S4096x6x49x32 where
  lhsContracting := [3]
  rhsContracting := [2]
  lhsNonContracting := [2]
  rhsNonContracting := [3]
  lhsBatch := [0, 1]
  rhsBatch := [0, 1]
  wf := dot_S4096x6x49x49_S4096x6x49x32_S4096x6x49x32_3_2_2_3_01_01_wf
def dot_S4096x49x192_S192x192_S4096x49x192_2_1_01_0_n_n : DotDims S4096x49x192 S192x192 S4096x49x192 where
  lhsContracting := [2]
  rhsContracting := [1]
  lhsNonContracting := [0, 1]
  rhsNonContracting := [0]
  lhsBatch := []
  rhsBatch := []
  wf := dot_S4096x49x192_S192x192_S4096x49x192_2_1_01_0_n_n_wf

class Facts : Prop extends Facts₀ where

variable [Facts]
-- ==== Proof.Spec.lean ====
/-
  Windowed cosine attention, written once as plain mathematics on the extended reals.

  One window holds 49 tokens of 192 channels. A fused projection gives, for each token, 576 features laid out as
  (part, head, channel) with 3 parts (query, key, value), 6 heads and 32 channels. Query and key rows are divided by
  their Euclidean length (bounded below by a small constant), the score of tokens n and m in head h is the inner
  product of the two unit rows, scaled per head, shifted by a per-head position bias and by the window's mask, and
  turned into weights by a softmax over m. The weights mix the value rows, the heads are laid side by side again
  (channel h * 32 + d), and a last projection with its bias gives the window's output.

  Everything is indexed by plain `Fin` coordinates, so that a program's array read at an index can be compared
  with it whatever the program's tiling, reshapes or transposes were.
-/
import Idealize.ShloMosaic.PureOps.Ideal
import Idealize.ShloMosaic.PureOps.Ideal.Laws
import Idealize.ShloMosaic.Lib.ValueIdx

noncomputable section

namespace WinAttn

open Idealize.ShloMosaic

/-- Position of (part, head, channel) among the 576 projected features. -/
def feat (s : Fin 3) (h : Fin 6) (d : Fin 32) : Fin 576 := ⟨s.val * 192 + h.val * 32 + d.val, by omega⟩

/-- Head of a merged channel. -/
def headOf (c : Fin 192) : Fin 6 := ⟨c.val / 32, by omega⟩

/-- Channel inside its head of a merged channel. -/
def laneOf (c : Fin 192) : Fin 32 := ⟨c.val % 32, Nat.mod_lt _ (by decide)⟩

/-- The lower bound on a row's length. -/
abbrev tiny : EReal := Ideal.ofBits .f32 0x2B8CBCCC#32

/-- The softmax's starting value for a row maximum: minus infinity. -/
abbrev bottom : EReal := Ideal.ofBits .f32 0xFF800000#32

/-- The cap on the logarithm of a head's scale. -/
abbrev logCap : EReal := Ideal.ofBits .f32 0x40935D8E#32

/-- A head's scale from its learnt logarithm: `exp (min l cap)`. -/
def scaleOf (l : EReal) : EReal := Ideal.exp (min l logCap)

/-! ## From scores and values to the output -/

section Mix

variable (a : Fin 6 → Fin 49 → Fin 49 → EReal) (v : Fin 6 → Fin 49 → Fin 32 → EReal)
  (sc : Fin 6 → EReal) (bias : Fin 6 → Fin 49 → Fin 49 → EReal) (mk : Fin 49 → Fin 49 → EReal)
  (P : Fin 192 → Fin 192 → EReal) (pb : Fin 192 → EReal)

/-- The logit of tokens (n, m) in head h: scaled score, plus position bias, plus mask. -/
def logit (h : Fin 6) (n m : Fin 49) : EReal := a h n m * sc h + bias h n m + mk n m

/-- The largest logit of row n (from minus infinity). -/
def top (h : Fin 6) (n : Fin 49) : EReal :=
  max bottom (Finset.univ.fold max bottom (fun m : Fin 49 => logit a sc bias mk h n m))

/-- The unnormalised weight. -/
def wexp (h : Fin 6) (n m : Fin 49) : EReal := Ideal.exp (logit a sc bias mk h n m - top a sc bias mk h n)

/-- The softmax weight of token m for token n. -/
def prob (h : Fin 6) (n m : Fin 49) : EReal :=
  Ideal.div (wexp a sc bias mk h n m) (∑ m' : Fin 49, wexp a sc bias mk h n m')

/-- The weighted mix of value rows. -/
def mix (h : Fin 6) (n : Fin 49) (d : Fin 32) : EReal := ∑ m : Fin 49, prob a sc bias mk h n m * v h m d

/-- The window's output: the heads side by side, projected, plus the projection's bias. -/
def outOf (n : Fin 49) (j : Fin 192) : EReal :=
  (∑ c : Fin 192, mix a v sc bias mk (headOf c) n (laneOf c) * P j c) + pb j

end Mix

/-! ## From the window's tokens to scores and values -/

section Proj

variable (x : Fin 49 → Fin 192 → EReal) (W : Fin 576 → Fin 192 → EReal) (bq : Fin 576 → EReal)

/-- One projected feature of token n. -/
def comp (s : Fin 3) (h : Fin 6) (n : Fin 49) (d : Fin 32) : EReal :=
  (∑ c : Fin 192, x n c * W (feat s h d) c) + bq (feat s h d)

/-- The bounded length of a projected row. -/
def len (s : Fin 3) (h : Fin 6) (n : Fin 49) : EReal :=
  max (Ideal.sqrt (∑ d : Fin 32, comp x W bq s h n d * comp x W bq s h n d)) tiny

/-- The row divided by its bounded length. -/
def dir (s : Fin 3) (h : Fin 6) (n : Fin 49) (d : Fin 32) : EReal :=
  Ideal.div (comp x W bq s h n d) (len x W bq s h n)

/-- The cosine score of tokens n (query) and m (key) in head h. -/
def score (h : Fin 6) (n m : Fin 49) : EReal := ∑ d : Fin 32, dir x W bq 0 h n d * dir x W bq 1 h m d

end Proj

/-- The whole window. -/
def out (x : Fin 49 → Fin 192 → EReal) (W : Fin 576 → Fin 192 → EReal) (bq : Fin 576 → EReal)
    (sc : Fin 6 → EReal) (bias : Fin 6 → Fin 49 → Fin 49 → EReal) (mk : Fin 49 → Fin 49 → EReal)
    (P : Fin 192 → Fin 192 → EReal) (pb : Fin 192 → EReal) (n : Fin 49) (j : Fin 192) : EReal :=
  outOf (score x W bq) (fun h m d => comp x W bq 2 h m d) sc bias mk P pb n j

end WinAttn

end
-- ==== Proof.KerProj.lean ====
/-
  The kernel body's first half read at an index: the fused projection of one tile of 32 windows, its three parts,
  and the cosine scores of the query and key parts.
-/
import proofs.«149519_j27470610825456_1_alg».proof.Proof.Gen.KernelIdeal.Skeleton
import proofs.«149519_j27470610825456_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx WinAttn

variable (x0 : Vec Ideal S32x49x192 .f32) (x1 : Vec Ideal S192x576 .f32) (x2 : Vec Ideal S576 .f32)

/-- The tokens of window `bl` of the tile. -/
abbrev tok (bl : Fin 32) : Fin 49 → Fin 192 → EReal := fun n c => x0 (ix3 bl n c)
/-- The projection's weights, feature first (the tile holds them channel first). -/
abbrev wq : Fin 576 → Fin 192 → EReal := fun o c => x1 (ix2 c o)
/-- The projection's bias. -/
abbrev bq : Fin 576 → EReal := fun o => x2 (ix1 o)

/-! ## The fused projection -/

theorem lhs_proj_0 (i : S1568x576.Idx) (q : dot_S1568x192_S192x576_S1568x576_1_0_0_1_n_n.contr.Idx) : (dot_S1568x192_S192x576_S1568x576_1_0_0_1_n_n.lhsIdx i q 0).val = (i 0).val := by
  unfold DotDims.lhsIdx
  rw [dif_neg (show ¬(0 : Fin S1568x192.rank) ∈ dot_S1568x192_S192x576_S1568x576_1_0_0_1_n_n.lhsBatch by decide),
    dif_pos (show (0 : Fin S1568x192.rank) ∈ dot_S1568x192_S192x576_S1568x576_1_0_0_1_n_n.lhsNonContracting by decide)]
  rfl
theorem lhs_proj_1 (i : S1568x576.Idx) (q : dot_S1568x192_S192x576_S1568x576_1_0_0_1_n_n.contr.Idx) :
    (dot_S1568x192_S192x576_S1568x576_1_0_0_1_n_n.lhsIdx i q 1).val = (q ⟨0, by decide⟩).val :=
  dot_S1568x192_S192x576_S1568x576_1_0_0_1_n_n.lhsIdx_val_of_single rfl i q
theorem rhs_proj_0 (i : S1568x576.Idx) (q : dot_S1568x192_S192x576_S1568x576_1_0_0_1_n_n.contr.Idx) :
    (dot_S1568x192_S192x576_S1568x576_1_0_0_1_n_n.rhsIdx i q 0).val = (q ⟨0, by decide⟩).val :=
  dot_S1568x192_S192x576_S1568x576_1_0_0_1_n_n.rhsIdx_val_of_single rfl i q
theorem rhs_proj_1 (i : S1568x576.Idx) (q : dot_S1568x192_S192x576_S1568x576_1_0_0_1_n_n.contr.Idx) : (dot_S1568x192_S192x576_S1568x576_1_0_0_1_n_n.rhsIdx i q 1).val = (i 1).val := by
  unfold DotDims.rhsIdx
  rw [dif_neg (show ¬(1 : Fin S192x576.rank) ∈ dot_S1568x192_S192x576_S1568x576_1_0_0_1_n_n.rhsBatch by decide),
    dif_pos (show (1 : Fin S192x576.rank) ∈ dot_S1568x192_S192x576_S1568x576_1_0_0_1_n_n.rhsNonContracting by decide)]
  rfl

/-- The product of a [1568, 192] block and a [192, 576] block into a zero accumulator, at (r, c): the sum over the
    192 channels of row r times column c. -/
theorem mm_proj_apply (A : FVec Ideal S1568x192 .bf16) (B : FVec Ideal S192x576 .bf16) (r : Fin 1568) (c : Fin 576) :
    matmul dot_S1568x192_S192x576_S1568x576_1_0_0_1_n_n none A B (constant S1568x576 .f32 0x00000000#32) (ix2 r c)
      = ∑ k : Fin 192, A (ix2 r k) * B (ix2 k c) := by
  simp only [matmul]
  rw [Ideal.matmul_constant_zero_apply, ← Equiv.sum_comp (contrEquiv1 dot_S1568x192_S192x576_S1568x576_1_0_0_1_n_n 192 rfl rfl).symm]
  refine Finset.sum_congr rfl fun k _ => ?_
  have hk := contrEquiv1_symm_val dot_S1568x192_S192x576_S1568x576_1_0_0_1_n_n 192 rfl rfl k
  have el : dot_S1568x192_S192x576_S1568x576_1_0_0_1_n_n.lhsIdx (ix2 r c) ((contrEquiv1 dot_S1568x192_S192x576_S1568x576_1_0_0_1_n_n 192 rfl rfl).symm k) = ix2 r k :=
    funext fun a => Fin.ext (by
      match a with
      | ⟨0, _⟩ => exact lhs_proj_0 _ _
      | ⟨1, _⟩ => exact (lhs_proj_1 _ _).trans hk)
  have er : dot_S1568x192_S192x576_S1568x576_1_0_0_1_n_n.rhsIdx (ix2 r c) ((contrEquiv1 dot_S1568x192_S192x576_S1568x576_1_0_0_1_n_n 192 rfl rfl).symm k) = ix2 k c :=
    funext fun a => Fin.ext (by
      match a with
      | ⟨0, _⟩ => exact (rhs_proj_0 _ _).trans hk
      | ⟨1, _⟩ => exact rhs_proj_1 _ _)
  rw [el, er]

/-- The row of token n of window bl among the tile's 1568 rows. -/
def rowOf (bl : Fin 32) (n : Fin 49) : Fin 1568 := ⟨bl.val * 49 + n.val, by omega⟩

/-- The tile's tokens laid as 1568 rows: row (window, token) is that token. -/
theorem rows_apply {α : Type} (A : S32x49x192.Idx → α) (bl : Fin 32) (n : Fin 49) (k : Fin 192) :
    shapeCast S1568x192 A shapeCasts_S32x49x192_S1568x192 (ix2 (rowOf bl n) k) = A (ix3 bl n k) := by
  refine shapeCast_apply _ _ (ix2 (rowOf bl n) k) (ix3 bl n k) ?_
  rw [Shape.rowMajor_val_two, Shape.rowMajor_val_three]
  rfl

/-- The weights read in place. -/
theorem weights_apply {α : Type} (B : S192x576.Idx → α) (i : S192x576.Idx) :
    shapeCast S192x576 B shapeCasts_S192x576_S192x576 i = B i :=
  shapeCast_apply _ _ i i rfl

/-- The bias row broadcast down the 1568 rows reads the bias at the column. -/
theorem biasRows_apply {α : Type} (b : S576.Idx → α) (r : Fin 1568) (c : Fin 576) :
    broadcastTo S1568x576 (shapeCast S1x576 b shapeCasts_S576_S1x576) broadcasts_S1x576_S1568x576 (ix2 r c)
      = b (ix1 c) := by
  refine (broadcastTo_apply _ _ (ix2 r c) (ix2 (0 : Fin 1) c) ?_).trans ?_
  · intro a
    match a with
    | ⟨0, _⟩ => rfl
    | ⟨1, _⟩ => rfl
  refine shapeCast_apply _ _ (ix2 (0 : Fin 1) c) (ix1 c) ?_
  rw [Shape.rowMajor_val_one, Shape.rowMajor_val_two]
  show c.val = 0 * 576 + c.val
  omega

/-- The transposed projection at (part, window, head, token, channel) is that feature of that token. -/
theorem pay2_apply (s : Fin 3) (bl : Fin 32) (h : Fin 6) (n : Fin 49) (d : Fin 32) :
    k0_pay2 (F := Ideal) x0 x1 x2 (ix5 s bl h n d) = comp (tok x0 bl) (wq x1) (bq x2) s h n d := by
  unfold k0_pay2
  -- the transpose reads (window, token, part, head, channel)
  refine (transpose_apply _ _ _ (ix5 s bl h n d) (ix5 bl n s h d) ?_).trans ?_
  · intro b
    match b with
    | ⟨0, _⟩ => rfl
    | ⟨1, _⟩ => rfl
    | ⟨2, _⟩ => rfl
    | ⟨3, _⟩ => rfl
    | ⟨4, _⟩ => rfl
  -- the shape cast reads row (window, token), column (part, head, channel)
  refine (shapeCast_apply _ _ (ix5 bl n s h d) (ix2 (rowOf bl n) (feat s h d)) ?_).trans ?_
  · rw [Shape.rowMajor_val_two, Shape.rowMajor_val_five]
    show (bl.val * 49 + n.val) * 576 + (s.val * 192 + h.val * 32 + d.val)
      = (((bl.val * 49 + n.val) * 3 + s.val) * 6 + h.val) * 32 + d.val
    omega
  rw [addf_apply, mm_proj_apply, biasRows_apply]
  unfold comp
  refine congrArg (· + x2 (ix1 (feat s h d))) (Finset.sum_congr rfl fun k _ => ?_)
  rw [rows_apply, truncf_apply, truncf_apply, weights_apply]

/-! ## The three parts -/

/-- Dropping the unit leading axis of a one-part block. -/
theorem dropPart_apply {α : Type} (V : S1x32x6x49x32.Idx → α) (bl : Fin 32) (h : Fin 6) (n : Fin 49) (d : Fin 32) :
    shapeCast S32x6x49x32 V shapeCasts_S1x32x6x49x32_S32x6x49x32 (ix4 bl h n d) = V (ix5 (0 : Fin 1) bl h n d) := by
  refine shapeCast_apply _ _ (ix4 bl h n d) (ix5 (0 : Fin 1) bl h n d) ?_
  rw [Shape.rowMajor_val_four, Shape.rowMajor_val_five]
  show ((((0 * 32 + bl.val) * 6 + h.val) * 49 + n.val) * 32 + d.val) = ((bl.val * 6 + h.val) * 49 + n.val) * 32 + d.val
  omega

/-- The slice at part 0 … -/
theorem part0_apply {α : Type} (P : S3x32x6x49x32.Idx → α) (bl : Fin 32) (h : Fin 6) (n : Fin 49) (d : Fin 32) :
    extractStridedSlice S1x32x6x49x32 ![0, 0, 0, 0, 0] P slices_S3x32x6x49x32_o0_0_0_0_0_S1x32x6x49x32
      (ix5 (0 : Fin 1) bl h n d) = P (ix5 (0 : Fin 3) bl h n d) := by
  refine extractStridedSlice_apply _ _ _ (ix5 (0 : Fin 1) bl h n d) (ix5 (0 : Fin 3) bl h n d) ?_
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- … at part 1 … -/
theorem part1_apply {α : Type} (P : S3x32x6x49x32.Idx → α) (bl : Fin 32) (h : Fin 6) (n : Fin 49) (d : Fin 32) :
    extractStridedSlice S1x32x6x49x32 ![1, 0, 0, 0, 0] P slices_S3x32x6x49x32_o1_0_0_0_0_S1x32x6x49x32
      (ix5 (0 : Fin 1) bl h n d) = P (ix5 (1 : Fin 3) bl h n d) := by
  refine extractStridedSlice_apply _ _ _ (ix5 (0 : Fin 1) bl h n d) (ix5 (1 : Fin 3) bl h n d) ?_
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- … and at part 2. -/
theorem part2_apply {α : Type} (P : S3x32x6x49x32.Idx → α) (bl : Fin 32) (h : Fin 6) (n : Fin 49) (d : Fin 32) :
    extractStridedSlice S1x32x6x49x32 ![2, 0, 0, 0, 0] P slices_S3x32x6x49x32_o2_0_0_0_0_S1x32x6x49x32
      (ix5 (0 : Fin 1) bl h n d) = P (ix5 (2 : Fin 3) bl h n d) := by
  refine extractStridedSlice_apply _ _ _ (ix5 (0 : Fin 1) bl h n d) (ix5 (2 : Fin 3) bl h n d) ?_
  intro a
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- The value part. -/
theorem pay3_apply (bl : Fin 32) (h : Fin 6) (n : Fin 49) (d : Fin 32) :
    k0_pay3 (F := Ideal) x0 x1 x2 (ix4 bl h n d) = comp (tok x0 bl) (wq x1) (bq x2) 2 h n d := by
  unfold k0_pay3
  rw [dropPart_apply, part2_apply, pay2_apply]

/-! ## Unit rows -/

/-- The sum over the 32 channels of a [32, 6, 49, 32] block, at (window, head, token). -/
theorem chanSum_apply (V : FVec Ideal S32x6x49x32 .f32) (bl : Fin 32) (h : Fin 6) (n : Fin 49) :
    multiReduction (F := Ideal) .add [3] S32x6x49 V 0x00000000#32 reduces_S32x6x49x32_S32x6x49 (.inl rfl) rfl (ix3 bl h n)
      = ∑ k : Fin 32, V (ix4 bl h n k) := by
  refine (Ideal.multiReduction_add_single V 0x00000000#32 reduces_S32x6x49x32_S32x6x49 (.inl rfl) rfl (ix3 bl h n)).trans ?_
  refine Finset.sum_congr rfl fun k _ => congrArg V (funext fun a => Fin.ext ?_)
  match a with
  | ⟨0, _⟩ => rfl
  | ⟨1, _⟩ => rfl
  | ⟨2, _⟩ => rfl
  | ⟨3, _⟩ => rfl

/-- A per-row quantity given a unit last axis. -/
theorem keepAxis_apply {α : Type} (W : S32x6x49.Idx → α) (bl : Fin 32) (h : Fin 6) (n : Fin 49) (u : Fin 1) :
    shapeCast S32x6x49x1 W shapeCasts_S32x6x49_S32x6x49x1 (ix4 bl h n u) = W (ix3 bl h n) := by
  refine shapeCast_apply _ _ (ix4 bl h n u) (ix3 bl h n) ?_
  rw [Shape.rowMajor_val_three, Shape.rowMajor_val_four]
  show (bl.val * 6 + h.val) * 49 + n.val = ((bl.val * 6 + h.val) * 49 + n.val) * 1 + u.val
  omega

/-- A per-row quantity broadcast back along the 32 channels. -/
theorem alongChan_apply {α : Type} (L : S32x6x49x1.Idx → α) (bl : Fin 32) (h : Fin 6) (n : Fin 49) (d : Fin 32) :
    broadcastTo S32x6x49x32 L broadcasts_S32x6x49x1_S32x6x49x32 (ix4 bl h n d) = L (ix4 bl h n (0 : Fin 1)) := by
  refine broadcastTo_apply _ _ (ix4 bl h n d) (ix4 bl h n (0 : Fin 1)) ?_
  intro a
  match a with
  | ⟨0, _⟩ => rfl
  | ⟨1, _⟩ => rfl
  | ⟨2, _⟩ => rfl
  | ⟨3, _⟩ => rfl

/-- A block divided, row by row, by the row's bounded Euclidean length. -/
theorem unit_apply (Q : FVec Ideal S32x6x49x32 .f32) (bl : Fin 32) (h : Fin 6) (n : Fin 49) (d : Fin 32) :
    divf Q (broadcastTo S32x6x49x32
        (maximumf
          (sqrt (shapeCast S32x6x49x1
            (multiReduction (F := Ideal) .add [3] S32x6x49 (mulf Q Q) 0x00000000#32 reduces_S32x6x49x32_S32x6x49 (.inl rfl) rfl)
            shapeCasts_S32x6x49_S32x6x49x1))
          (broadcast S32x6x49x1 (Scalar.ofBits (F := Ideal) .f32 0x2B8CBCCC#32)))
        broadcasts_S32x6x49x1_S32x6x49x32) (ix4 bl h n d)
      = Ideal.div (Q (ix4 bl h n d)) (max (Ideal.sqrt (∑ k : Fin 32, Q (ix4 bl h n k) * Q (ix4 bl h n k))) tiny) := by
  rw [divf_apply, alongChan_apply, maximumf_apply, broadcast_apply]
  show Ideal.div _ (max (Ideal.sqrt (shapeCast S32x6x49x1 _ shapeCasts_S32x6x49_S32x6x49x1 (ix4 bl h n (0 : Fin 1)))) tiny) = _
  rw [keepAxis_apply, chanSum_apply]
  rfl

/-! ## The scores -/

theorem lhs_score_0 (i : S192x49x49.Idx) (q : dot_S192x49x32_S192x49x32_S192x49x49_2_2_1_1_0_0.contr.Idx) : (dot_S192x49x32_S192x49x32_S192x49x49_2_2_1_1_0_0.lhsIdx i q 0).val = (i 0).val := by
  unfold DotDims.lhsIdx
  rw [dif_pos (show (0 : Fin S192x49x32.rank) ∈ dot_S192x49x32_S192x49x32_S192x49x49_2_2_1_1_0_0.lhsBatch by decide)]
  rfl
theorem lhs_score_1 (i : S192x49x49.Idx) (q : dot_S192x49x32_S192x49x32_S192x49x49_2_2_1_1_0_0.contr.Idx) : (dot_S192x49x32_S192x49x32_S192x49x49_2_2_1_1_0_0.lhsIdx i q 1).val = (i 1).val := by
  unfold DotDims.lhsIdx
  rw [dif_neg (show ¬(1 : Fin S192x49x32.rank) ∈ dot_S192x49x32_S192x49x32_S192x49x49_2_2_1_1_0_0.lhsBatch by decide),
    dif_pos (show (1 : Fin S192x49x32.rank) ∈ dot_S192x49x32_S192x49x32_S192x49x49_2_2_1_1_0_0.lhsNonContracting by decide)]
  rfl
theorem lhs_score_2 (i : S192x49x49.Idx) (q : dot_S192x49x32_S192x49x32_S192x49x49_2_2_1_1_0_0.contr.Idx) :
    (dot_S192x49x32_S192x49x32_S192x49x49_2_2_1_1_0_0.lhsIdx i q 2).val = (q ⟨0, by decide⟩).val :=
  dot_S192x49x32_S192x49x32_S192x49x49_2_2_1_1_0_0.lhsIdx_val_of_single rfl i q
theorem rhs_score_0 (i : S192x49x49.Idx) (q : dot_S192x49x32_S192x49x32_S192x49x49_2_2_1_1_0_0.contr.Idx) : (dot_S192x49x32_S192x49x32_S192x49x49_2_2_1_1_0_0.rhsIdx i q 0).val = (i 0).val := by
  unfold DotDims.rhsIdx
  rw [dif_pos (show (0 : Fin S192x49x32.rank) ∈ dot_S192x49x32_S192x49x32_S192x49x49_2_2_1_1_0_0.rhsBatch by decide)]
  rfl
theorem rhs_score_1 (i : S192x49x49.Idx) (q : dot_S192x49x32_S192x49x32_S192x49x49_2_2_1_1_0_0.contr.Idx) : (dot_S192x49x32_S192x49x32_S192x49x49_2_2_1_1_0_0.rhsIdx i q 1).val = (i 2).val := by
  unfold DotDims.rhsIdx
  rw [dif_neg (show ¬(1 : Fin S192x49x32.rank) ∈ dot_S192x49x32_S192x49x32_S192x49x49_2_2_1_1_0_0.rhsBatch by decide),
    dif_pos (show (1 : Fin S192x49x32.rank) ∈ dot_S192x49x32_S192x49x32_S192x49x49_2_2_1_1_0_0.rhsNonContracting by decide)]
  rfl
theorem rhs_score_2 (i : S192x49x49.Idx) (q : dot_S192x49x32_S192x49x32_S192x49x49_2_2_1_1_0_0.contr.Idx) :
    (dot_S192x49x32_S192x49x32_S192x49x49_2_2_1_1_0_0.rhsIdx i q 2).val = (q ⟨0, by decide⟩).val :=
  dot_S192x49x32_S192x49x32_S192x49x49_2_2_1_1_0_0.rhsIdx_val_of_single rfl i q

/-- The batched product of two [192, 49, 32] blocks over their last axis into a zero accumulator, at (b, n, m): the
    inner product of row n of the first and row m of the second, both of batch b. -/
theorem mm_score_apply (A B : FVec Ideal S192x49x32 .bf16) (b : Fin 192) (n m : Fin 49) :
    matmul dot_S192x49x32_S192x49x32_S192x49x49_2_2_1_1_0_0 none A B (constant S192x49x49 .f32 0x00000000#32) (ix3 b n m)
      = ∑ k : Fin 32, A (ix3 b n k) * B (ix3 b m k) := by
  simp only [matmul]
  rw [Ideal.matmul_constant_zero_apply, ← Equiv.sum_comp (contrEquiv1 dot_S192x49x32_S192x49x32_S192x49x49_2_2_1_1_0_0 32 rfl rfl).symm]
  refine Finset.sum_congr rfl fun k _ => ?_
  have hk := contrEquiv1_symm_val dot_S192x49x32_S192x49x32_S192x49x49_2_2_1_1_0_0 32 rfl rfl k
  have el : dot_S192x49x32_S192x49x32_S192x49x49_2_2_1_1_0_0.lhsIdx (ix3 b n m) ((contrEquiv1 dot_S192x49x32_S192x49x32_S192x49x49_2_2_1_1_0_0 32 rfl rfl).symm k) = ix3 b n k :=
    funext fun a => Fin.ext (by
      match a with
      | ⟨0, _⟩ => exact lhs_score_0 _ _
      | ⟨1, _⟩ => exact lhs_score_1 _ _
      | ⟨2, _⟩ => exact (lhs_score_2 _ _).trans hk)
  have er : dot_S192x49x32_S192x49x32_S192x49x49_2_2_1_1_0_0.rhsIdx (ix3 b n m) ((contrEquiv1 dot_S192x49x32_S192x49x32_S192x49x49_2_2_1_1_0_0 32 rfl rfl).symm k) = ix3 b m k :=
    funext fun a => Fin.ext (by
      match a with
      | ⟨0, _⟩ => exact rhs_score_0 _ _
      | ⟨1, _⟩ => exact rhs_score_1 _ _
      | ⟨2, _⟩ => exact (rhs_score_2 _ _).trans hk)
  rw [el, er]

/-- The row of head h of window bl among the tile's 192 (window, head) batches. -/
def batchOf (bl : Fin 32) (h : Fin 6) : Fin 192 := ⟨bl.val * 6 + h.val, by omega⟩

/-- The heads of the 32 windows laid as 192 batches: batch (window, head) is that head's block. -/
theorem batches_apply {α : Type} (V : S32x6x49x32.Idx → α) (bl : Fin 32) (h : Fin 6) (n : Fin 49) (k : Fin 32) :
    shapeCast S192x49x32 V shapeCasts_S32x6x49x32_S192x49x32 (ix3 (batchOf bl h) n k) = V (ix4 bl h n k) := by
  refine shapeCast_apply _ _ (ix3 (batchOf bl h) n k) (ix4 bl h n k) ?_
  rw [Shape.rowMajor_val_three, Shape.rowMajor_val_four]
  rfl

/-- The 192 batches of scores split back into (window, head). -/
theorem unbatch_apply {α : Type} (W : S192x49x49.Idx → α) (bl : Fin 32) (h : Fin 6) (n m : Fin 49) :
    shapeCast S32x6x49x49 W shapeCasts_S192x49x49_S32x6x49x49 (ix4 bl h n m) = W (ix3 (batchOf bl h) n m) := by
  refine shapeCast_apply _ _ (ix4 bl h n m) (ix3 (batchOf bl h) n m) ?_
  rw [Shape.rowMajor_val_three, Shape.rowMajor_val_four]
  rfl

/-- The query part (part 0) and the key part (part 1), as blocks. -/
theorem part_q_apply (bl : Fin 32) (h : Fin 6) (n : Fin 49) (d : Fin 32) :
    shapeCast S32x6x49x32
        (extractStridedSlice S1x32x6x49x32 ![0, 0, 0, 0, 0] (k0_pay2 (F := Ideal) x0 x1 x2)
          slices_S3x32x6x49x32_o0_0_0_0_0_S1x32x6x49x32)
        shapeCasts_S1x32x6x49x32_S32x6x49x32 (ix4 bl h n d)
      = comp (tok x0 bl) (wq x1) (bq x2) 0 h n d := by
  rw [dropPart_apply, part0_apply, pay2_apply]
theorem part_k_apply (bl : Fin 32) (h : Fin 6) (n : Fin 49) (d : Fin 32) :
    shapeCast S32x6x49x32
        (extractStridedSlice S1x32x6x49x32 ![1, 0, 0, 0, 0] (k0_pay2 (F := Ideal) x0 x1 x2)
          slices_S3x32x6x49x32_o1_0_0_0_0_S1x32x6x49x32)
        shapeCasts_S1x32x6x49x32_S32x6x49x32 (ix4 bl h n d)
      = comp (tok x0 bl) (wq x1) (bq x2) 1 h n d := by
  rw [dropPart_apply, part1_apply, pay2_apply]

/-- The scores: inner products of the unit query and key rows. -/
theorem pay4_apply (bl : Fin 32) (h : Fin 6) (n m : Fin 49) :
    k0_pay4 (F := Ideal) x0 x1 x2 (ix4 bl h n m) = score (tok x0 bl) (wq x1) (bq x2) h n m := by
  unfold k0_pay4
  refine (unbatch_apply _ bl h n m).trans ?_
  refine (mm_score_apply _ _ (batchOf bl h) n m).trans ?_
  unfold score
  refine Finset.sum_congr rfl fun k _ => ?_
  rw [truncf_apply, truncf_apply, batches_apply, batches_apply, unit_apply, unit_apply]
  simp only [part_q_apply, part_k_apply]
  rfl

/-- The per-head scales, re-laid with unit axes around the head axis. -/
theorem pay5_apply (x3 : Vec Ideal S6 .f32) (u0 : Fin 1) (h : Fin 6) (u2 u3 : Fin 1) :
    k0_pay5 (F := Ideal) x3 (ix4 u0 h u2 u3) = x3 (ix1 h) := by
  unfold k0_pay5
  refine (shapeCast_apply _ _ (ix4 u0 h u2 u3) (ix1 h) ?_).trans ?_
  · rw [Shape.rowMajor_val_one, Shape.rowMajor_val_four]
    show h.val = ((u0.val * 6 + h.val) * 1 + u2.val) * 1 + u3.val
    omega
  · exact shapeCast_apply _ _ (ix1 h) (ix1 h) rfl

end Cert.KernelIdeal.Bridge

end
-- ==== Proof.KerMix.lean ====
/-
  The kernel body's second half read at an index: from scores, values and scales of one tile of 32 windows to the
  tile's output — logits, softmax over the key tokens, the mix of value rows, heads side by side, the last projection.
-/
import proofs.«149519_j27470610825456_1_alg».proof.Proof.Gen.KernelIdeal.Skeleton
import proofs.«149519_j27470610825456_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx WinAttn

/-! ## The logits -/

/-- The per-head scale spread over the tile reads, at (window, head, n, m), the head's scale. -/
theorem bc_scale_apply (v43 : FVec Ideal S1x6x1x1 .f32) (hb : S1x6x1x1.Broadcasts S32x6x49x49)
    (bl : Fin 32) (h : Fin 6) (n m : Fin 49) :
    broadcastTo S32x6x49x49 v43 hb (ix4 bl h n m) = v43 (ix4 0 h 0 0) :=
  broadcastTo_apply v43 hb (ix4 bl h n m) (ix4 0 h 0 0) fun a => match a with
    | ⟨0, _⟩ => by show 0 = if (1 : Nat) = 1 then 0 else bl.val; rw [if_pos rfl]
    | ⟨1, _⟩ => by show h.val = if (6 : Nat) = 1 then 0 else h.val; rw [if_neg (by decide)]
    | ⟨2, _⟩ => by show 0 = if (1 : Nat) = 1 then 0 else n.val; rw [if_pos rfl]
    | ⟨3, _⟩ => by show 0 = if (1 : Nat) = 1 then 0 else m.val; rw [if_pos rfl]

/-- The position bias spread over the windows reads, at (window, head, n, m), the bias at (head, n, m). -/
theorem bc_bias_apply (y : FVec Ideal S1x6x49x49 .f32) (hb : S1x6x49x49.Broadcasts S32x6x49x49)
    (bl : Fin 32) (h : Fin 6) (n m : Fin 49) :
    broadcastTo S32x6x49x49 y hb (ix4 bl h n m) = y (ix4 0 h n m) :=
  broadcastTo_apply y hb (ix4 bl h n m) (ix4 0 h n m) fun a => match a with
    | ⟨0, _⟩ => by show 0 = if (1 : Nat) = 1 then 0 else bl.val; rw [if_pos rfl]
    | ⟨1, _⟩ => by show h.val = if (6 : Nat) = 1 then 0 else h.val; rw [if_neg (by decide)]
    | ⟨2, _⟩ => by show n.val = if (49 : Nat) = 1 then 0 else n.val; rw [if_neg (by decide)]
    | ⟨3, _⟩ => by show m.val = if (49 : Nat) = 1 then 0 else m.val; rw [if_neg (by decide)]

/-- The mask spread over the heads reads, at (window, head, n, m), the mask at (window, 0, n, m). -/
theorem bc_mask_apply (y : FVec Ideal S32x1x49x49 .f32) (hb : S32x1x49x49.Broadcasts S32x6x49x49)
    (bl : Fin 32) (h : Fin 6) (n m : Fin 49) :
    broadcastTo S32x6x49x49 y hb (ix4 bl h n m) = y (ix4 bl 0 n m) :=
  broadcastTo_apply y hb (ix4 bl h n m) (ix4 bl 0 n m) fun a => match a with
    | ⟨0, _⟩ => by show bl.val = if (32 : Nat) = 1 then 0 else bl.val; rw [if_neg (by decide)]
    | ⟨1, _⟩ => by show 0 = if (1 : Nat) = 1 then 0 else h.val; rw [if_pos rfl]
    | ⟨2, _⟩ => by show n.val = if (49 : Nat) = 1 then 0 else n.val; rw [if_neg (by decide)]
    | ⟨3, _⟩ => by show m.val = if (49 : Nat) = 1 then 0 else m.val; rw [if_neg (by decide)]

/-- The mask given a unit head axis reads, at (window, 0, n, m), the mask at (window, n, m): both positions are
    (window * 49 + n) * 49 + m. -/
theorem cast_mask_apply (x5 : Vec Ideal S32x49x49 .f32) (hc : S32x49x49.ShapeCasts S32x1x49x49)
    (bl : Fin 32) (u : Fin 1) (n m : Fin 49) :
    shapeCast S32x1x49x49 x5 hc (ix4 bl u n m) = x5 (ix3 bl n m) :=
  shapeCast_apply x5 hc _ _ (by
    have hu : u.val = 0 := by omega
    rw [Shape.rowMajor_val_four, Shape.rowMajor_val_three]
    show (bl.val * 49 + n.val) * 49 + m.val = ((bl.val * 1 + u.val) * 49 + n.val) * 49 + m.val
    rw [hu, Nat.mul_one, Nat.add_zero])

/-- The tile's logits: scores times the head's scale, plus the position bias, plus the window's mask. -/
def lgt (v40 : FVec Ideal S32x6x49x49 .f32) (v43 : FVec Ideal S1x6x1x1 .f32) (x4 : Vec Ideal S6x49x49 .f32)
    (x5 : Vec Ideal S32x49x49 .f32) : FVec Ideal S32x6x49x49 .f32 :=
  addf (addf (mulf v40 (broadcastTo S32x6x49x49 v43 broadcasts_S1x6x1x1_S32x6x49x49))
      (broadcastTo S32x6x49x49 (shapeCast S1x6x49x49 (shapeCast S6x49x49 x4 shapeCasts_S6x49x49_S6x49x49)
        shapeCasts_S6x49x49_S1x6x49x49) broadcasts_S1x6x49x49_S32x6x49x49))
    (broadcastTo S32x6x49x49 (shapeCast S32x1x49x49 x5 shapeCasts_S32x49x49_S32x1x49x49) broadcasts_S32x1x49x49_S32x6x49x49)

/-- The logits at (window, head, n, m) are the specification's logit of that window. -/
theorem lgt_apply (v40 : FVec Ideal S32x6x49x49 .f32) (v43 : FVec Ideal S1x6x1x1 .f32) (x4 : Vec Ideal S6x49x49 .f32)
    (x5 : Vec Ideal S32x49x49 .f32) (bl : Fin 32) (h : Fin 6) (n m : Fin 49) :
    lgt v40 v43 x4 x5 (ix4 bl h n m)
      = logit (fun h n m => v40 (ix4 bl h n m)) (fun h => v43 (ix4 0 h 0 0)) (fun h n m => x4 (ix3 h n m))
          (fun n m => x5 (ix3 bl n m)) h n m := by
  unfold lgt logit
  rw [addf_apply, addf_apply, mulf_apply, bc_scale_apply, bc_bias_apply, bc_mask_apply, cast_mask_apply,
    shapeCast_abc_1abc_apply, shapeCast_self]

/-! ## The softmax over the key tokens -/

/-- A maximum over the tile's last axis reads, at (window, head, n), the fold of `max` from minus infinity over the
    row's 49 entries. -/
theorem reduce_max_apply (src : FVec Ideal S32x6x49x49 .f32) (hr : S32x6x49x49.Reduces [3] S32x6x49) (hφ : FKind.Formats .f32)
    (hacc : (0xFF800000#32 : BitVec 32) = FKind.maximumf.neutral .f32 hφ) (bl : Fin 32) (h : Fin 6) (n : Fin 49) :
    multiReduction (F := Ideal) .maximumf [3] S32x6x49 src 0xFF800000#32 hr hφ hacc (ix3 bl h n)
      = Finset.univ.fold max bottom (fun m : Fin 49 => src (ix4 bl h n m)) := by
  refine (Ideal.multiReduction_maximumf_single src _ hr hφ hacc (ix3 bl h n)).trans ?_
  show Finset.univ.fold max bottom (fun m : Fin 49 => src (hr.lift (ix3 bl h n) m)) = _
  congr 1
  funext m
  congr 1
  funext a
  match a with
  | ⟨0, _⟩ => rfl
  | ⟨1, _⟩ => rfl
  | ⟨2, _⟩ => rfl
  | ⟨3, _⟩ => rfl

/-- A sum over the tile's last axis reads, at (window, head, n), the sum of the row's 49 entries. -/
theorem reduce_add_apply (src : FVec Ideal S32x6x49x49 .f32) (hr : S32x6x49x49.Reduces [3] S32x6x49) (hφ : FKind.Formats .f32)
    (hacc : (0x00000000#32 : BitVec 32) = FKind.add.neutral .f32 hφ) (bl : Fin 32) (h : Fin 6) (n : Fin 49) :
    multiReduction (F := Ideal) .add [3] S32x6x49 src 0x00000000#32 hr hφ hacc (ix3 bl h n)
      = ∑ m : Fin 49, src (ix4 bl h n m) := by
  refine (Ideal.multiReduction_add_single src _ hr hφ hacc (ix3 bl h n)).trans ?_
  show ∑ m : Fin 49, src (hr.lift (ix3 bl h n) m) = _
  refine Finset.sum_congr rfl fun m _ => ?_
  congr 1
  funext a
  match a with
  | ⟨0, _⟩ => rfl
  | ⟨1, _⟩ => rfl
  | ⟨2, _⟩ => rfl
  | ⟨3, _⟩ => rfl

/-- A per-row value given a unit last axis reads, at (window, head, n, 0), the value at (window, head, n): both
    positions are (window * 6 + head) * 49 + n. -/
theorem cast_col_apply (y : FVec Ideal S32x6x49 .f32) (hc : S32x6x49.ShapeCasts S32x6x49x1)
    (bl : Fin 32) (h : Fin 6) (n : Fin 49) (u : Fin 1) :
    shapeCast S32x6x49x1 y hc (ix4 bl h n u) = y (ix3 bl h n) :=
  shapeCast_apply y hc _ _ (by
    have hu : u.val = 0 := by omega
    rw [Shape.rowMajor_val_four, Shape.rowMajor_val_three]
    show (bl.val * 6 + h.val) * 49 + n.val = ((bl.val * 6 + h.val) * 49 + n.val) * 1 + u.val
    rw [hu, Nat.mul_one, Nat.add_zero])

/-- A per-row column spread along the row reads, at (window, head, n, m), the column at (window, head, n, 0). -/
theorem bc_col_apply (y : FVec Ideal S32x6x49x1 .f32) (hb : S32x6x49x1.Broadcasts S32x6x49x49)
    (bl : Fin 32) (h : Fin 6) (n m : Fin 49) :
    broadcastTo S32x6x49x49 y hb (ix4 bl h n m) = y (ix4 bl h n 0) :=
  broadcastTo_apply y hb (ix4 bl h n m) (ix4 bl h n 0) fun a => match a with
    | ⟨0, _⟩ => by show bl.val = if (32 : Nat) = 1 then 0 else bl.val; rw [if_neg (by decide)]
    | ⟨1, _⟩ => by show h.val = if (6 : Nat) = 1 then 0 else h.val; rw [if_neg (by decide)]
    | ⟨2, _⟩ => by show n.val = if (49 : Nat) = 1 then 0 else n.val; rw [if_neg (by decide)]
    | ⟨3, _⟩ => by show 0 = if (1 : Nat) = 1 then 0 else m.val; rw [if_pos rfl]

/-- The row maxima of the logits `z`, bounded below by minus infinity. -/
def rmax (z : FVec Ideal S32x6x49x49 .f32) : FVec Ideal S32x6x49 .f32 :=
  maximumf (broadcast S32x6x49 (Scalar.ofBits (F := Ideal) .f32 0xFF800000#32))
    (multiReduction (F := Ideal) .maximumf [3] S32x6x49 z 0xFF800000#32 reduces_S32x6x49x49_S32x6x49 (.inl rfl) rfl)

theorem rmax_apply (z : FVec Ideal S32x6x49x49 .f32) (bl : Fin 32) (h : Fin 6) (n : Fin 49) :
    rmax z (ix3 bl h n) = max bottom (Finset.univ.fold max bottom (fun m : Fin 49 => z (ix4 bl h n m))) := by
  unfold rmax
  rw [maximumf_apply]
  exact congrArg (max bottom) (reduce_max_apply z _ _ _ bl h n)

/-- The unnormalised weights: the exponential of the logits less their row maximum. -/
def wts (z : FVec Ideal S32x6x49x49 .f32) : FVec Ideal S32x6x49x49 .f32 :=
  exp (subf z (broadcastTo S32x6x49x49 (shapeCast S32x6x49x1 (rmax z) shapeCasts_S32x6x49_S32x6x49x1)
    broadcasts_S32x6x49x1_S32x6x49x49))

theorem wts_apply (z : FVec Ideal S32x6x49x49 .f32) (bl : Fin 32) (h : Fin 6) (n m : Fin 49) :
    wts z (ix4 bl h n m) = Ideal.exp (z (ix4 bl h n m) - rmax z (ix3 bl h n)) := by
  unfold wts
  show Ideal.exp (subf z _ (ix4 bl h n m)) = _
  rw [subf_apply, bc_col_apply, cast_col_apply]

/-- The softmax weights: each unnormalised weight divided by its row's sum. -/
def prb (z : FVec Ideal S32x6x49x49 .f32) : FVec Ideal S32x6x49x49 .f32 :=
  divf (wts z) (broadcastTo S32x6x49x49 (shapeCast S32x6x49x1
      (multiReduction (F := Ideal) .add [3] S32x6x49 (wts z) 0x00000000#32 reduces_S32x6x49x49_S32x6x49 (.inl rfl) rfl)
      shapeCasts_S32x6x49_S32x6x49x1) broadcasts_S32x6x49x1_S32x6x49x49)

theorem prb_apply (z : FVec Ideal S32x6x49x49 .f32) (bl : Fin 32) (h : Fin 6) (n m : Fin 49) :
    prb z (ix4 bl h n m) = Ideal.div (wts z (ix4 bl h n m)) (∑ m' : Fin 49, wts z (ix4 bl h n m')) := by
  unfold prb
  rw [divf_apply, bc_col_apply, cast_col_apply]
  exact congrArg (Ideal.div _) (reduce_add_apply (wts z) _ _ _ bl h n)

/-- The softmax weights of the tile's logits are the specification's weights of each window. -/
theorem prb_lgt_apply (v40 : FVec Ideal S32x6x49x49 .f32) (v43 : FVec Ideal S1x6x1x1 .f32) (x4 : Vec Ideal S6x49x49 .f32)
    (x5 : Vec Ideal S32x49x49 .f32) (bl : Fin 32) (h : Fin 6) (n m : Fin 49) :
    prb (lgt v40 v43 x4 x5) (ix4 bl h n m)
      = prob (fun h n m => v40 (ix4 bl h n m)) (fun h => v43 (ix4 0 h 0 0)) (fun h n m => x4 (ix3 h n m))
          (fun n m => x5 (ix3 bl n m)) h n m := by
  unfold prob wexp top
  rw [prb_apply]
  simp only [wts_apply, rmax_apply, lgt_apply]

/-! ## The mix of value rows: one product of a 49 x 49 block of weights and a 49 x 32 block of value rows per (window, head) -/

/-- The weights' operand index of the batched product: its row block is the output's. -/
theorem mixL_0 (i : S192x49x32.Idx) (q : dot_S192x49x49_S192x49x32_S192x49x32_2_1_1_2_0_0.contr.Idx) :
    (dot_S192x49x49_S192x49x32_S192x49x32_2_1_1_2_0_0.lhsIdx i q 0).val = (i 0).val := by
  unfold DotDims.lhsIdx
  rw [dif_pos (show (0 : Fin S192x49x49.rank) ∈ dot_S192x49x49_S192x49x32_S192x49x32_2_1_1_2_0_0.lhsBatch by decide)]
  rfl
/-- Its query token is the output's. -/
theorem mixL_1 (i : S192x49x32.Idx) (q : dot_S192x49x49_S192x49x32_S192x49x32_2_1_1_2_0_0.contr.Idx) :
    (dot_S192x49x49_S192x49x32_S192x49x32_2_1_1_2_0_0.lhsIdx i q 1).val = (i 1).val := by
  unfold DotDims.lhsIdx
  rw [dif_neg (show ¬(1 : Fin S192x49x49.rank) ∈ dot_S192x49x49_S192x49x32_S192x49x32_2_1_1_2_0_0.lhsBatch by decide), dif_pos (show (1 : Fin S192x49x49.rank) ∈ dot_S192x49x49_S192x49x32_S192x49x32_2_1_1_2_0_0.lhsNonContracting by decide)]
  rfl
/-- Its key token is the contraction's coordinate. -/
theorem mixL_2 (i : S192x49x32.Idx) (q : dot_S192x49x49_S192x49x32_S192x49x32_2_1_1_2_0_0.contr.Idx) :
    (dot_S192x49x49_S192x49x32_S192x49x32_2_1_1_2_0_0.lhsIdx i q 2).val = (q ⟨0, by decide⟩).val :=
  dot_S192x49x49_S192x49x32_S192x49x32_2_1_1_2_0_0.lhsIdx_val_of_single rfl i q
/-- The value rows' operand index: its row block is the output's. -/
theorem mixR_0 (i : S192x49x32.Idx) (q : dot_S192x49x49_S192x49x32_S192x49x32_2_1_1_2_0_0.contr.Idx) :
    (dot_S192x49x49_S192x49x32_S192x49x32_2_1_1_2_0_0.rhsIdx i q 0).val = (i 0).val := by
  unfold DotDims.rhsIdx
  rw [dif_pos (show (0 : Fin S192x49x32.rank) ∈ dot_S192x49x49_S192x49x32_S192x49x32_2_1_1_2_0_0.rhsBatch by decide)]
  rfl
/-- Its token is the contraction's coordinate. -/
theorem mixR_1 (i : S192x49x32.Idx) (q : dot_S192x49x49_S192x49x32_S192x49x32_2_1_1_2_0_0.contr.Idx) :
    (dot_S192x49x49_S192x49x32_S192x49x32_2_1_1_2_0_0.rhsIdx i q 1).val = (q ⟨0, by decide⟩).val :=
  dot_S192x49x49_S192x49x32_S192x49x32_2_1_1_2_0_0.rhsIdx_val_of_single rfl i q
/-- Its channel is the output's. -/
theorem mixR_2 (i : S192x49x32.Idx) (q : dot_S192x49x49_S192x49x32_S192x49x32_2_1_1_2_0_0.contr.Idx) :
    (dot_S192x49x49_S192x49x32_S192x49x32_2_1_1_2_0_0.rhsIdx i q 2).val = (i 2).val := by
  unfold DotDims.rhsIdx
  rw [dif_neg (show ¬(2 : Fin S192x49x32.rank) ∈ dot_S192x49x49_S192x49x32_S192x49x32_2_1_1_2_0_0.rhsBatch by decide), dif_pos (show (2 : Fin S192x49x32.rank) ∈ dot_S192x49x49_S192x49x32_S192x49x32_2_1_1_2_0_0.rhsNonContracting by decide)]
  rfl

/-- The batched product into zero reads, at (row block r, token n, channel d), the sum over the key tokens m of the
    weight at (r, n, m) times the value at (r, m, d). -/
theorem mm_mix_apply (A : FVec Ideal S192x49x49 .bf16) (B : FVec Ideal S192x49x32 .bf16) (r : Fin 192) (n : Fin 49) (d : Fin 32) :
    matmul dot_S192x49x49_S192x49x32_S192x49x32_2_1_1_2_0_0 none A B (constant (F := Ideal) S192x49x32 .f32 0x00000000#32) (ix3 r n d)
      = ∑ m : Fin 49, A (ix3 r n m) * B (ix3 r m d) := by
  simp only [matmul]
  rw [Ideal.matmul_constant_zero_apply, ← Equiv.sum_comp (contrEquiv1 dot_S192x49x49_S192x49x32_S192x49x32_2_1_1_2_0_0 49 rfl rfl).symm]
  refine Finset.sum_congr rfl fun k _ => ?_
  have hk := contrEquiv1_symm_val dot_S192x49x49_S192x49x32_S192x49x32_2_1_1_2_0_0 49 rfl rfl k
  have el : dot_S192x49x49_S192x49x32_S192x49x32_2_1_1_2_0_0.lhsIdx (ix3 r n d) ((contrEquiv1 dot_S192x49x49_S192x49x32_S192x49x32_2_1_1_2_0_0 49 rfl rfl).symm k) = ix3 r n k := funext fun a => Fin.ext (by
    match a with
    | ⟨0, _⟩ => exact mixL_0 _ _
    | ⟨1, _⟩ => exact mixL_1 _ _
    | ⟨2, _⟩ => exact (mixL_2 _ _).trans hk)
  have er : dot_S192x49x49_S192x49x32_S192x49x32_2_1_1_2_0_0.rhsIdx (ix3 r n d) ((contrEquiv1 dot_S192x49x49_S192x49x32_S192x49x32_2_1_1_2_0_0 49 rfl rfl).symm k) = ix3 r k d := funext fun a => Fin.ext (by
    match a with
    | ⟨0, _⟩ => exact mixR_0 _ _
    | ⟨1, _⟩ => exact (mixR_1 _ _).trans hk
    | ⟨2, _⟩ => exact mixR_2 _ _)
  rw [el, er]

/-! ## Windows and heads folded into one axis, and back; heads side by side -/

/-- The row block of (window, head) among the 192 of the tile. -/
def tileRow (bl : Fin 32) (h : Fin 6) : Fin 192 := ⟨bl.val * 6 + h.val, by omega⟩

/-- The row of (window, token) among the 1568 of the tile. -/
def tokOf (bl : Fin 32) (n : Fin 49) : Fin 1568 := ⟨bl.val * 49 + n.val, by omega⟩

/-- The weights with (window, head) folded read, at (row block of (window, head), n, m), the weights at
    (window, head, n, m): the two positions are the same sum. -/
theorem cast_fold_w_apply (y : FVec Ideal S32x6x49x49 .f32) (hc : S32x6x49x49.ShapeCasts S192x49x49)
    (bl : Fin 32) (h : Fin 6) (n m : Fin 49) :
    shapeCast S192x49x49 y hc (ix3 (tileRow bl h) n m) = y (ix4 bl h n m) :=
  shapeCast_apply y hc _ _ (by
    rw [Shape.rowMajor_val_four, Shape.rowMajor_val_three]
    show ((bl.val * 6 + h.val) * 49 + n.val) * 49 + m.val = ((bl.val * 6 + h.val) * 49 + n.val) * 49 + m.val
    rfl)

/-- The value rows with (window, head) folded likewise. -/
theorem cast_fold_v_apply (y : FVec Ideal S32x6x49x32 .f32) (hc : S32x6x49x32.ShapeCasts S192x49x32)
    (bl : Fin 32) (h : Fin 6) (m : Fin 49) (d : Fin 32) :
    shapeCast S192x49x32 y hc (ix3 (tileRow bl h) m d) = y (ix4 bl h m d) :=
  shapeCast_apply y hc _ _ (by
    rw [Shape.rowMajor_val_four, Shape.rowMajor_val_three]
    show ((bl.val * 6 + h.val) * 49 + m.val) * 32 + d.val = ((bl.val * 6 + h.val) * 49 + m.val) * 32 + d.val
    rfl)

/-- The mix unfolded to (window, head) reads, at (window, head, n, d), the folded mix at the row block of (window, head). -/
theorem cast_unfold_apply (y : FVec Ideal S192x49x32 .f32) (hc : S192x49x32.ShapeCasts S32x6x49x32)
    (bl : Fin 32) (h : Fin 6) (n : Fin 49) (d : Fin 32) :
    shapeCast S32x6x49x32 y hc (ix4 bl h n d) = y (ix3 (tileRow bl h) n d) :=
  shapeCast_apply y hc _ _ (by
    rw [Shape.rowMajor_val_four, Shape.rowMajor_val_three]
    show ((bl.val * 6 + h.val) * 49 + n.val) * 32 + d.val = ((bl.val * 6 + h.val) * 49 + n.val) * 32 + d.val
    rfl)

/-- Tokens before heads: at (window, n, head, d) the operand at (window, head, n, d). -/
theorem tr_heads_apply (y : FVec Ideal S32x6x49x32 .f32) (ht : S32x6x49x32.Transposes [0, 2, 1, 3] S32x49x6x32)
    (bl : Fin 32) (n : Fin 49) (h : Fin 6) (d : Fin 32) :
    transpose S32x49x6x32 [0, 2, 1, 3] y ht (ix4 bl n h d) = y (ix4 bl h n d) :=
  transpose_apply _ y ht _ _ fun c => match c with | ⟨0, _⟩ => rfl | ⟨1, _⟩ => rfl | ⟨2, _⟩ => rfl | ⟨3, _⟩ => rfl

/-- The heads side by side: at (row of (window, n), channel c) the operand at (window, n, head of c, lane of c), since
    c = 32 * (c / 32) + c % 32. -/
theorem cast_merge_apply (y : FVec Ideal S32x49x6x32 .f32) (hc : S32x49x6x32.ShapeCasts S1568x192)
    (bl : Fin 32) (n : Fin 49) (c : Fin 192) :
    shapeCast S1568x192 y hc (ix2 (tokOf bl n) c) = y (ix4 bl n (headOf c) (laneOf c)) :=
  shapeCast_apply y hc _ _ (by
    rw [Shape.rowMajor_val_four, Shape.rowMajor_val_two]
    show ((bl.val * 49 + n.val) * 6 + c.val / 32) * 32 + c.val % 32 = (bl.val * 49 + n.val) * 192 + c.val
    omega)

/-- The output rows unfolded to (window, token): at (window, n, j) the operand at (row of (window, n), j). -/
theorem cast_out_apply (y : FVec Ideal S1568x192 .f32) (hc : S1568x192.ShapeCasts S32x49x192)
    (bl : Fin 32) (n : Fin 49) (j : Fin 192) :
    shapeCast S32x49x192 y hc (ix3 bl n j) = y (ix2 (tokOf bl n) j) :=
  shapeCast_apply y hc _ _ (by
    rw [Shape.rowMajor_val_two, Shape.rowMajor_val_three]
    show (bl.val * 49 + n.val) * 192 + j.val = (bl.val * 49 + n.val) * 192 + j.val
    rfl)

/-! ## The last projection -/

/-- The merged rows' operand index of the last product: its row is the output's. -/
theorem projL_0 (i : S1568x192.Idx) (q : dot_S1568x192_S192x192_S1568x192_1_0_0_1_n_n.contr.Idx) :
    (dot_S1568x192_S192x192_S1568x192_1_0_0_1_n_n.lhsIdx i q 0).val = (i 0).val := by
  unfold DotDims.lhsIdx
  rw [dif_neg (show ¬(0 : Fin S1568x192.rank) ∈ dot_S1568x192_S192x192_S1568x192_1_0_0_1_n_n.lhsBatch by decide), dif_pos (show (0 : Fin S1568x192.rank) ∈ dot_S1568x192_S192x192_S1568x192_1_0_0_1_n_n.lhsNonContracting by decide)]
  rfl
/-- Its channel is the contraction's coordinate. -/
theorem projL_1 (i : S1568x192.Idx) (q : dot_S1568x192_S192x192_S1568x192_1_0_0_1_n_n.contr.Idx) :
    (dot_S1568x192_S192x192_S1568x192_1_0_0_1_n_n.lhsIdx i q 1).val = (q ⟨0, by decide⟩).val :=
  dot_S1568x192_S192x192_S1568x192_1_0_0_1_n_n.lhsIdx_val_of_single rfl i q
/-- The projection's operand index: its row is the contraction's coordinate. -/
theorem projR_0 (i : S1568x192.Idx) (q : dot_S1568x192_S192x192_S1568x192_1_0_0_1_n_n.contr.Idx) :
    (dot_S1568x192_S192x192_S1568x192_1_0_0_1_n_n.rhsIdx i q 0).val = (q ⟨0, by decide⟩).val :=
  dot_S1568x192_S192x192_S1568x192_1_0_0_1_n_n.rhsIdx_val_of_single rfl i q
/-- Its column is the output's. -/
theorem projR_1 (i : S1568x192.Idx) (q : dot_S1568x192_S192x192_S1568x192_1_0_0_1_n_n.contr.Idx) :
    (dot_S1568x192_S192x192_S1568x192_1_0_0_1_n_n.rhsIdx i q 1).val = (i 1).val := by
  unfold DotDims.rhsIdx
  rw [dif_neg (show ¬(1 : Fin S192x192.rank) ∈ dot_S1568x192_S192x192_S1568x192_1_0_0_1_n_n.rhsBatch by decide), dif_pos (show (1 : Fin S192x192.rank) ∈ dot_S1568x192_S192x192_S1568x192_1_0_0_1_n_n.rhsNonContracting by decide)]
  rfl

/-- The last product into zero reads, at (row r, column j), the sum over the merged channels c of the row's entry at c
    times the projection at (c, j). -/
theorem mm_last_apply (A : FVec Ideal S1568x192 .bf16) (B : FVec Ideal S192x192 .bf16) (r : Fin 1568) (j : Fin 192) :
    matmul dot_S1568x192_S192x192_S1568x192_1_0_0_1_n_n none A B (constant (F := Ideal) S1568x192 .f32 0x00000000#32) (ix2 r j)
      = ∑ c : Fin 192, A (ix2 r c) * B (ix2 c j) := by
  simp only [matmul]
  rw [Ideal.matmul_constant_zero_apply, ← Equiv.sum_comp (contrEquiv1 dot_S1568x192_S192x192_S1568x192_1_0_0_1_n_n 192 rfl rfl).symm]
  refine Finset.sum_congr rfl fun k _ => ?_
  have hk := contrEquiv1_symm_val dot_S1568x192_S192x192_S1568x192_1_0_0_1_n_n 192 rfl rfl k
  have el : dot_S1568x192_S192x192_S1568x192_1_0_0_1_n_n.lhsIdx (ix2 r j) ((contrEquiv1 dot_S1568x192_S192x192_S1568x192_1_0_0_1_n_n 192 rfl rfl).symm k) = ix2 r k := funext fun a => Fin.ext (by
    match a with
    | ⟨0, _⟩ => exact projL_0 _ _
    | ⟨1, _⟩ => exact (projL_1 _ _).trans hk)
  have er : dot_S1568x192_S192x192_S1568x192_1_0_0_1_n_n.rhsIdx (ix2 r j) ((contrEquiv1 dot_S1568x192_S192x192_S1568x192_1_0_0_1_n_n 192 rfl rfl).symm k) = ix2 k j := funext fun a => Fin.ext (by
    match a with
    | ⟨0, _⟩ => exact (projR_0 _ _).trans hk
    | ⟨1, _⟩ => exact projR_1 _ _)
  rw [el, er]

/-! ## The stages of the payload -/

/-- The mix of value rows `v` by the weights `p`, with (window, head) folded into one axis of 192 row blocks. -/
def mixv (p : FVec Ideal S32x6x49x49 .f32) (v : FVec Ideal S32x6x49x32 .f32) : FVec Ideal S192x49x32 .f32 :=
  matmul dot_S192x49x49_S192x49x32_S192x49x32_2_1_1_2_0_0 none
    (truncf .bf16 (shapeCast S192x49x49 p shapeCasts_S32x6x49x49_S192x49x49) bitsLt_bf16_f32)
    (truncf .bf16 (shapeCast S192x49x32 v shapeCasts_S32x6x49x32_S192x49x32) bitsLt_bf16_f32)
    (constant (F := Ideal) S192x49x32 .f32 0x00000000#32)

theorem mixv_apply (p : FVec Ideal S32x6x49x49 .f32) (v : FVec Ideal S32x6x49x32 .f32)
    (bl : Fin 32) (h : Fin 6) (n : Fin 49) (d : Fin 32) :
    mixv p v (ix3 (tileRow bl h) n d) = ∑ m : Fin 49, p (ix4 bl h n m) * v (ix4 bl h m d) := by
  unfold mixv
  rw [mm_mix_apply]
  refine Finset.sum_congr rfl fun m _ => ?_
  rw [truncf_apply, truncf_apply, cast_fold_w_apply, cast_fold_v_apply]

/-- The folded mix `y` with each token's heads side by side: 1568 rows of 192 channels. -/
def merged (y : FVec Ideal S192x49x32 .f32) : FVec Ideal S1568x192 .f32 :=
  shapeCast S1568x192 (transpose S32x49x6x32 [0, 2, 1, 3] (shapeCast S32x6x49x32 y shapeCasts_S192x49x32_S32x6x49x32)
    transposes_S32x6x49x32_p0_2_1_3_S32x49x6x32) shapeCasts_S32x49x6x32_S1568x192

theorem merged_apply (y : FVec Ideal S192x49x32 .f32) (bl : Fin 32) (n : Fin 49) (c : Fin 192) :
    merged y (ix2 (tokOf bl n) c) = y (ix3 (tileRow bl (headOf c)) n (laneOf c)) := by
  unfold merged
  rw [cast_merge_apply, tr_heads_apply, cast_unfold_apply]

/-- The merged rows `z` projected by `x6` (held channel first) plus the bias `x7`, as (window, token, channel). -/
def proj (z : FVec Ideal S1568x192 .f32) (x6 : Vec Ideal S192x192 .f32) (x7 : Vec Ideal S192 .f32) : FVec Ideal S32x49x192 .f32 :=
  shapeCast S32x49x192
    (addf (matmul dot_S1568x192_S192x192_S1568x192_1_0_0_1_n_n none (truncf .bf16 z bitsLt_bf16_f32)
        (truncf .bf16 (shapeCast S192x192 x6 shapeCasts_S192x192_S192x192) bitsLt_bf16_f32)
        (constant (F := Ideal) S1568x192 .f32 0x00000000#32))
      (broadcastTo S1568x192 (shapeCast S1x192 x7 shapeCasts_S192_S1x192) broadcasts_S1x192_S1568x192))
    shapeCasts_S1568x192_S32x49x192

theorem proj_apply (z : FVec Ideal S1568x192 .f32) (x6 : Vec Ideal S192x192 .f32) (x7 : Vec Ideal S192 .f32)
    (bl : Fin 32) (n : Fin 49) (j : Fin 192) :
    proj z x6 x7 (ix3 bl n j) = (∑ c : Fin 192, z (ix2 (tokOf bl n) c) * x6 (ix2 c j)) + x7 (ix1 j) := by
  unfold proj
  rw [cast_out_apply, addf_apply, mm_last_apply, broadcastTo_1b_ab_apply, shapeCast_a_1a_apply]
  congr 1
  refine Finset.sum_congr rfl fun c _ => ?_
  rw [truncf_apply, truncf_apply, shapeCast_self]

/-- The payload is its stages one after another. -/
theorem pay1_eq (v18 : FVec Ideal S32x6x49x32 .f32) (v40 : FVec Ideal S32x6x49x49 .f32) (v43 : FVec Ideal S1x6x1x1 .f32)
    (x4 : Vec Ideal S6x49x49 .f32) (x5 : Vec Ideal S32x49x49 .f32) (x6 : Vec Ideal S192x192 .f32) (x7 : Vec Ideal S192 .f32) :
    k0_pay1 (F := Ideal) v18 v40 v43 x4 x5 x6 x7 = proj (merged (mixv (prb (lgt v40 v43 x4 x5)) v18)) x6 x7 := rfl

/-- The output tile at (window, token, channel) is the window's output from its scores `v40`, its value rows `v18`, the
    per-head scales `v43`, the position bias `x4`, the window's mask `x5`, and the last projection `x6` (held channel
    first) with its bias `x7`. -/
theorem pay1_apply (v18 : FVec Ideal S32x6x49x32 .f32) (v40 : FVec Ideal S32x6x49x49 .f32) (v43 : FVec Ideal S1x6x1x1 .f32)
    (x4 : Vec Ideal S6x49x49 .f32) (x5 : Vec Ideal S32x49x49 .f32) (x6 : Vec Ideal S192x192 .f32) (x7 : Vec Ideal S192 .f32)
    (bl : Fin 32) (n : Fin 49) (j : Fin 192) :
    k0_pay1 (F := Ideal) v18 v40 v43 x4 x5 x6 x7 (ix3 bl n j)
      = outOf (fun h n m => v40 (ix4 bl h n m)) (fun h m d => v18 (ix4 bl h m d)) (fun h => v43 (ix4 0 h 0 0))
          (fun h n m => x4 (ix3 h n m)) (fun n m => x5 (ix3 bl n m)) (fun j c => x6 (ix2 c j)) (fun j => x7 (ix1 j)) n j := by
  rw [pay1_eq, proj_apply]
  unfold outOf mix
  congr 1
  refine Finset.sum_congr rfl fun c _ => ?_
  rw [merged_apply, mixv_apply]
  congr 1
  refine Finset.sum_congr rfl fun m _ => ?_
  rw [prb_lgt_apply]

end Cert.KernelIdeal.Bridge

end
-- ==== Proof.KerArray.lean ====
/-
  From tiles to the whole array. The kernel visits the 4096 windows in 128 tiles of 32. Point t stages windows
  32 t .. 32 t + 31 of the tokens, the mask rows (32 t + bl) mod 64 (the masks repeat with period 64, and 32 divides 64,
  so a tile's masks are one contiguous half of the mask array), and the whole of every other operand; it writes back
  the outputs of the same 32 windows. Hence the output array is, window by window, the window's attention output.
-/
import proofs.«149519_j27470610825456_1_alg».proof.Proof.Gen.KernelIdeal.Value
import proofs.«149519_j27470610825456_1_alg».proof.Proof.KerProj
import proofs.«149519_j27470610825456_1_alg».proof.Proof.KerMix
import proofs.«149519_j27470610825456_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Cert.KernelIdeal.Bridge Idealize.ShloMosaic Idealize.ShloMosaic.TcCoe Idealize.SL.Sem
open Idealize.ShloMosaic.ValueIdx Idealize.ShloMosaic.StableHlo WinAttn
open Idealize.ShloMosaic.Pipeline (Dat)

variable (m : (ℓ : Loc nD τ sig) → Buf (Elt Ideal) ℓ) (ρ : Dev nD → PrngReg)

/-! ## The body's result at an index -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- What the body leaves in the output tile, at (window, token, channel): that window's attention output, from the
    tile's tokens and masks and the whole weights, scales and position bias. -/
theorem tile_apply (x0 : Vec Ideal S32x49x192 .f32) (x1 : Vec Ideal S192x576 .f32) (x2 : Vec Ideal S576 .f32) (x3 : Vec Ideal S6 .f32)
    (x4 : Vec Ideal S6x49x49 .f32) (x5 : Vec Ideal S32x49x49 .f32) (x6 : Vec Ideal S192x192 .f32) (x7 : Vec Ideal S192 .f32)
    (bl : Fin 32) (n : Fin 49) (j : Fin 192) :
    out0_8 (F := Ideal) x0 x1 x2 x3 x4 x5 x6 x7 (ix3 bl n j)
      = out (tok x0 bl) (wq x1) (bq x2) (fun h => x3 (ix1 h)) (fun h n k => x4 (ix3 h n k)) (fun n k => x5 (ix3 bl n k))
          (fun j ch => x6 (ix2 ch j)) (fun j => x7 (ix1 j)) n j := by
  unfold out0_8
  rw [View.canon_unit_zero zero3]
  simp only [View.ld_unit_zero (S := S32x49x192) zero3, View.ld_unit_zero (S := S192x576) zero2, View.ld_unit_zero (S := S576) zero1,
    View.ld_unit_zero (S := S6) zero1, View.ld_unit_zero (S := S6x49x49) zero3, View.ld_unit_zero (S := S32x49x49) zero3,
    View.ld_unit_zero (S := S192x192) zero2, View.ld_unit_zero (S := S192) zero1]
  rw [pay1_apply]
  simp only [pay3_apply, pay4_apply, pay5_apply]
  rfl

/-! ## The staged arrays as the region finds them -/

/-- The projection's weights are staged transposed: channel first. -/
theorem wq_staged (c : Dev nD) (ch : Fin 192) (o : Fin 576) :
    V m c main_v14 (ix2 ch o) = V m c main_arg2 (ix2 o ch) := by
  have e : (V m c main_v14 : S192x576.Idx → EReal) = transpose S192x576 [1, 0] (V m c main_arg2) transposes_S576x192_S192x576_1_0 := by
    dsimp only [V, hostOps0]; after_results
  rw [e]
  exact transpose_ix2_apply _ _ ch o

/-- So is the last projection. -/
theorem pw_staged (c : Dev nD) (ch j : Fin 192) :
    V m c main_v15 (ix2 ch j) = V m c main_arg7 (ix2 j ch) := by
  have e : (V m c main_v15 : S192x192.Idx → EReal) = transpose S192x192 [1, 0] (V m c main_arg7) transposes_S192x192_S192x192_1_0 := by
    dsimp only [V, hostOps0]; after_results
  rw [e]
  exact transpose_ix2_apply _ _ ch j

/-- The staged scales: the exponential of each head's capped logarithm. -/
theorem scale_staged (c : Dev nD) (h : Fin 6) :
    V m c main_v13 (ix1 h) = scaleOf (V m c main_arg4 (ix3 h 0 0)) := by
  have e : (V m c main_v13 : S6.Idx → EReal) = shapeCast S6 (Host.exp (F := Ideal) (minimumf (V m c main_arg4)
      (broadcastInDim S6x1x1 ![] bcast_S_S6x1x1 (constant (F := Ideal) S_ .f32 0x40935D8E#32)))) shapeCasts_S6x1x1_S6 := by
    dsimp only [V, hostOps0]; after_results; rfl
  rw [e, shapeCast_apply _ _ (ix1 h) (ix3 h 0 0) (by
    rw [Shape.rowMajor_val_three, Shape.rowMajor_val_one]; show (h.val * 1 + 0) * 1 + 0 = h.val; omega)]
  rfl

/-! ## Which part of each array a grid point stages -/

/-- Window `bl` of tile `t` among all windows. -/
def glob (t : Fin cfg0.N) (bl : Fin 32) : Fin 4096 := ⟨32 * t.val + bl.val, by have := t.isLt; have h128 : cfg0.N = 128 := N_0; have := bl.isLt; omega⟩

/-- The mask row of a window: the masks repeat with period 64. -/
def wrap (b : Fin 4096) : Fin 64 := ⟨b.val % 64, Nat.mod_lt _ (by decide)⟩

/-- The printed index maps over the grid: tokens and outputs move with the point, the masks with its parity. -/
theorem moving : ∀ t : Fin cfg0.N,
    win0_0.index t (0 : Fin 3) = t.val ∧ win0_0.index t (1 : Fin 3) = 0 ∧ win0_0.index t (2 : Fin 3) = 0
    ∧ win0_5.index t (0 : Fin 3) = t.val % 2 ∧ win0_5.index t (1 : Fin 3) = 0 ∧ win0_5.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- Every other operand is staged whole at every point. -/
theorem resting : ∀ t : Fin cfg0.N,
    win0_1.index t (0 : Fin 2) = 0 ∧ win0_1.index t (1 : Fin 2) = 0 ∧ win0_2.index t (0 : Fin 1) = 0 ∧ win0_3.index t (0 : Fin 1) = 0
    ∧ win0_4.index t (0 : Fin 3) = 0 ∧ win0_4.index t (1 : Fin 3) = 0 ∧ win0_4.index t (2 : Fin 3) = 0
    ∧ win0_6.index t (0 : Fin 2) = 0 ∧ win0_6.index t (1 : Fin 2) = 0 ∧ win0_7.index t (0 : Fin 1) = 0 :=
  (by decide +kernel : ∀ t : Fin grid0.N, _)

/-- The output tile's entry (bl, n, j) is the array's entry (32 t + bl, n, j). -/
theorem emb_out (t : Fin cfg0.N) (bl : Fin 32) (n : Fin 49) (j : Fin 192) :
    ((cfg0.win 8).blk t).view.emb (ix3 bl n j) = ix3 (glob t bl) n j := by
  obtain ⟨-, -, -, -, -, -, e0, e1, e2⟩ := moving t
  funext a; apply Fin.ext
  match a with
  | ⟨0, _⟩ => show win0_8.index t (0 : Fin 3) * 32 + 1 * bl.val = 32 * t.val + bl.val; rw [e0]; omega
  | ⟨1, _⟩ => show win0_8.index t (1 : Fin 3) * 49 + 1 * n.val = n.val; rw [e1]; omega
  | ⟨2, _⟩ => show win0_8.index t (2 : Fin 3) * 192 + 1 * j.val = j.val; rw [e2]; omega

/-- The staged tokens. -/
theorem rd_tok (c : Dev nD) (t : Fin cfg0.N) (bl : Fin 32) (n : Fin 49) (ch : Fin 192) :
    iblk m c 0 t (ix3 bl n ch) = m ((c : Thread nD τ).loc main_arg0) (ix3 (glob t bl) n ch) := by
  rw [← V_main_arg0 m c]
  show V m c main_arg0 (((cfg0.win 0).blk t).view.emb (ix3 bl n ch)) = _
  obtain ⟨e0, e1, e2, -⟩ := moving t
  refine congrArg (V m c main_arg0) (funext fun a => Fin.ext ?_)
  match a with
  | ⟨0, _⟩ => show win0_0.index t (0 : Fin 3) * 32 + 1 * bl.val = 32 * t.val + bl.val; rw [e0]; omega
  | ⟨1, _⟩ => show win0_0.index t (1 : Fin 3) * 49 + 1 * n.val = n.val; rw [e1]; omega
  | ⟨2, _⟩ => show win0_0.index t (2 : Fin 3) * 192 + 1 * ch.val = ch.val; rw [e2]; omega

/-- The staged masks: tile t holds the mask rows of its own windows. -/
theorem rd_mask (c : Dev nD) (t : Fin cfg0.N) (bl : Fin 32) (n k : Fin 49) :
    iblk m c 5 t (ix3 bl n k) = m ((c : Thread nD τ).loc main_arg1) (ix3 (wrap (glob t bl)) n k) := by
  rw [← V_main_arg1 m c]
  show V m c main_arg1 (((cfg0.win 5).blk t).view.emb (ix3 bl n k)) = _
  obtain ⟨-, -, -, e0, e1, e2, -⟩ := moving t
  refine congrArg (V m c main_arg1) (funext fun a => Fin.ext ?_)
  match a with
  | ⟨0, _⟩ => show win0_5.index t (0 : Fin 3) * 32 + 1 * bl.val = (32 * t.val + bl.val) % 64; rw [e0]; have := bl.isLt; omega
  | ⟨1, _⟩ => show win0_5.index t (1 : Fin 3) * 49 + 1 * n.val = n.val; rw [e1]; omega
  | ⟨2, _⟩ => show win0_5.index t (2 : Fin 3) * 49 + 1 * k.val = k.val; rw [e2]; omega

/-- The staged projection weights. -/
theorem rd_wq (c : Dev nD) (t : Fin cfg0.N) (ch : Fin 192) (o : Fin 576) :
    iblk m c 1 t (ix2 ch o) = m ((c : Thread nD τ).loc main_arg2) (ix2 o ch) := by
  rw [← V_main_arg2 m c, ← wq_staged m c ch o]
  show V m c main_v14 (((cfg0.win 1).blk t).view.emb (ix2 ch o)) = _
  obtain ⟨e0, e1, -⟩ := resting t
  refine congrArg (V m c main_v14) (funext fun a => Fin.ext ?_)
  match a with
  | ⟨0, _⟩ => show win0_1.index t (0 : Fin 2) * 192 + 1 * ch.val = ch.val; rw [e0]; omega
  | ⟨1, _⟩ => show win0_1.index t (1 : Fin 2) * 576 + 1 * o.val = o.val; rw [e1]; omega

/-- The staged projection bias. -/
theorem rd_bq (c : Dev nD) (t : Fin cfg0.N) (o : Fin 576) :
    iblk m c 2 t (ix1 o) = m ((c : Thread nD τ).loc main_arg3) (ix1 o) := by
  rw [← V_main_arg3 m c]
  show V m c main_arg3 (((cfg0.win 2).blk t).view.emb (ix1 o)) = _
  obtain ⟨-, -, e0, -⟩ := resting t
  refine congrArg (V m c main_arg3) (funext fun a => Fin.ext ?_)
  match a with
  | ⟨0, _⟩ => show win0_2.index t (0 : Fin 1) * 576 + 1 * o.val = o.val; rw [e0]; omega

/-- The staged scales. -/
theorem rd_scale (c : Dev nD) (t : Fin cfg0.N) (h : Fin 6) :
    iblk m c 3 t (ix1 h) = scaleOf (m ((c : Thread nD τ).loc main_arg4) (ix3 h 0 0)) := by
  rw [← V_main_arg4 m c, ← scale_staged m c h]
  show V m c main_v13 (((cfg0.win 3).blk t).view.emb (ix1 h)) = _
  obtain ⟨-, -, -, e0, -⟩ := resting t
  refine congrArg (V m c main_v13) (funext fun a => Fin.ext ?_)
  match a with
  | ⟨0, _⟩ => show win0_3.index t (0 : Fin 1) * 6 + 1 * h.val = h.val; rw [e0]; omega

/-- The staged position bias. -/
theorem rd_bias (c : Dev nD) (t : Fin cfg0.N) (h : Fin 6) (n k : Fin 49) :
    iblk m c 4 t (ix3 h n k) = V m c main_v9 (ix3 h n k) := by
  show V m c main_v9 (((cfg0.win 4).blk t).view.emb (ix3 h n k)) = _
  obtain ⟨-, -, -, -, e0, e1, e2, -⟩ := resting t
  refine congrArg (V m c main_v9) (funext fun a => Fin.ext ?_)
  match a with
  | ⟨0, _⟩ => show win0_4.index t (0 : Fin 3) * 6 + 1 * h.val = h.val; rw [e0]; omega
  | ⟨1, _⟩ => show win0_4.index t (1 : Fin 3) * 49 + 1 * n.val = n.val; rw [e1]; omega
  | ⟨2, _⟩ => show win0_4.index t (2 : Fin 3) * 49 + 1 * k.val = k.val; rw [e2]; omega

/-- The staged last projection. -/
theorem rd_pw (c : Dev nD) (t : Fin cfg0.N) (ch j : Fin 192) :
    iblk m c 6 t (ix2 ch j) = m ((c : Thread nD τ).loc main_arg7) (ix2 j ch) := by
  rw [← V_main_arg7 m c, ← pw_staged m c ch j]
  show V m c main_v15 (((cfg0.win 6).blk t).view.emb (ix2 ch j)) = _
  obtain ⟨-, -, -, -, -, -, -, e0, e1, -⟩ := resting t
  refine congrArg (V m c main_v15) (funext fun a => Fin.ext ?_)
  match a with
  | ⟨0, _⟩ => show win0_6.index t (0 : Fin 2) * 192 + 1 * ch.val = ch.val; rw [e0]; omega
  | ⟨1, _⟩ => show win0_6.index t (1 : Fin 2) * 192 + 1 * j.val = j.val; rw [e1]; omega

/-- The staged last bias. -/
theorem rd_pb (c : Dev nD) (t : Fin cfg0.N) (j : Fin 192) :
    iblk m c 7 t (ix1 j) = m ((c : Thread nD τ).loc main_arg8) (ix1 j) := by
  rw [← V_main_arg8 m c]
  show V m c main_arg8 (((cfg0.win 7).blk t).view.emb (ix1 j)) = _
  obtain ⟨-, -, -, -, -, -, -, -, -, e0⟩ := resting t
  refine congrArg (V m c main_arg8) (funext fun a => Fin.ext ?_)
  match a with
  | ⟨0, _⟩ => show win0_7.index t (0 : Fin 1) * 192 + 1 * j.val = j.val; rw [e0]; omega

/-! ## The whole output array -/

/-- The attention output of every window, as one function of the argument arrays (the position bias as staged). -/
def G (c : Dev nD) : S4096x49x192.Idx → EReal := fun i =>
  out (fun n ch => m ((c : Thread nD τ).loc main_arg0) (ix3 (i 0) n ch)) (fun o ch => m ((c : Thread nD τ).loc main_arg2) (ix2 o ch))
    (fun o => m ((c : Thread nD τ).loc main_arg3) (ix1 o)) (fun h => scaleOf (m ((c : Thread nD τ).loc main_arg4) (ix3 h 0 0)))
    (fun h n k => V m c main_v9 (ix3 h n k)) (fun n k => m ((c : Thread nD τ).loc main_arg1) (ix3 (wrap (i 0)) n k))
    (fun j ch => m ((c : Thread nD τ).loc main_arg7) (ix2 j ch)) (fun j => m ((c : Thread nD τ).loc main_arg8) (ix1 j)) (i 1) (i 2)

/-- What point t writes back is tile t of that function. -/
theorem flushed_eq (c : Dev nD) (t : Fin cfg0.N) :
    (dats m 0 c).flushed 8 t = ((cfg0.win 8).blk t).view.read (Elt Ideal) (G m c) := by
  rw [Value.flushed8]
  funext y
  obtain ⟨bl, n, j, rfl⟩ : ∃ (bl : Fin 32) (n : Fin 49) (j : Fin 192), y = ix3 bl n j := ⟨y 0, y 1, y 2, eq_ix3 y⟩
  show out0_8 (iblk m c 0 t) (iblk m c 1 t) (iblk m c 2 t) (iblk m c 3 t) (iblk m c 4 t) (iblk m c 5 t) (iblk m c 6 t) (iblk m c 7 t) (ix3 bl n j)
    = G m c (((cfg0.win 8).blk t).view.emb (ix3 bl n j))
  rw [emb_out]
  refine (tile_apply (iblk m c 0 t) (iblk m c 1 t) (iblk m c 2 t) (iblk m c 3 t) (iblk m c 4 t) (iblk m c 5 t) (iblk m c 6 t) (iblk m c 7 t) bl n j).trans ?_
  show out (fun n ch => iblk m c 0 t (ix3 bl n ch)) (fun o ch => iblk m c 1 t (ix2 ch o)) (fun o => iblk m c 2 t (ix1 o))
      (fun h => iblk m c 3 t (ix1 h)) (fun h n k => iblk m c 4 t (ix3 h n k)) (fun n k => iblk m c 5 t (ix3 bl n k))
      (fun j ch => iblk m c 6 t (ix2 ch j)) (fun j => iblk m c 7 t (ix1 j)) n j = _
  simp only [rd_tok, rd_mask, rd_wq, rd_bq, rd_scale, rd_bias, rd_pw, rd_pb]
  rfl

/-- An index of the array is in point t's tile iff each coordinate is in the tile's range. -/
theorem mem_tile (t : Fin cfg0.N) (i : S4096x49x192.Idx) :
    i ∈ ((cfg0.win 8).blk t).view.set ↔ ∀ a : Fin 3, win0_8.index t a * S32x49x192.size a ≤ (i a).val ∧ (i a).val < win0_8.index t a * S32x49x192.size a + S32x49x192.size a := by
  show i ∈ ((View.whole main_v16).slice (win0_8.rect t)).set ↔ _
  rw [View.set_slice_whole, Rect.mem_set_unit]
  exact Iff.rfl

/-- The 128 tiles fill the array: window b is in tile b / 32. -/
theorem cover (i : S4096x49x192.Idx) : ∃ t : Fin cfg0.N, (cfg0.win 8).flush t = true ∧ i ∈ ((cfg0.win 8).blk t).view.set := by
  have h0 : (i 0).val < 4096 := (i 0).isLt
  have h1 : (i 1).val < 49 := (i 1).isLt
  have h2 : (i 2).val < 192 := (i 2).isLt
  refine ⟨⟨(i 0).val / 32, by have := N_0; show (i 0).val / 32 < grid0.N; omega⟩, flush0_8 _, ?_⟩
  rw [mem_tile]
  obtain ⟨-, -, -, -, -, -, e0, e1, e2⟩ := moving ⟨(i 0).val / 32, by have := N_0; show (i 0).val / 32 < grid0.N; omega⟩
  intro a
  match a with
  | ⟨0, _⟩ => show win0_8.index _ (0 : Fin 3) * 32 ≤ (i 0).val ∧ (i 0).val < win0_8.index _ (0 : Fin 3) * 32 + 32; rw [e0]; show (i 0).val / 32 * 32 ≤ _ ∧ _ < (i 0).val / 32 * 32 + 32; omega
  | ⟨1, _⟩ => show win0_8.index _ (1 : Fin 3) * 49 ≤ (i 1).val ∧ (i 1).val < win0_8.index _ (1 : Fin 3) * 49 + 49; rw [e1]; omega
  | ⟨2, _⟩ => show win0_8.index _ (2 : Fin 3) * 192 ≤ (i 2).val ∧ (i 2).val < win0_8.index _ (2 : Fin 3) * 192 + 192; rw [e2]; omega

/-- The output array after the run. -/
theorem final (c : Dev nD) : (dats m 0 c).arrAt 8 cfg0.N = G m c :=
  (dats m 0 c).arrAt_eq_of_cover 8 (G m c) (fun t _ => flushed_eq m c t) cover

/-- The kernel's run, its result named: every window's attention output; the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefProj.lean ====
/-
  The reference's first stages read at an index: the fused projection of all 4096 windows, its three parts, the unit
  query and key rows, and their cosine scores.
-/
import proofs.«149519_j27470610825456_1_alg».proof.Proof.Gen.ReferenceIdeal.Read
import proofs.«149519_j27470610825456_1_alg».proof.Proof.Spec
import Idealize.ShloMosaic.Lib.Pipeline.Value
import Idealize.ShloMosaic.Lib.ValueIdx
import Idealize.ShloMosaic.PureOps.Ideal.Laws

noncomputable section

namespace Cert.ReferenceIdeal.Bridge

open Cert.ReferenceIdeal Cert.ReferenceIdeal.Gen Cert.ReferenceIdeal.Read Idealize.ShloMosaic Idealize.ShloMosaic.ValueIdx WinAttn

variable (x0 : (⟨S4096x49x192, .f32⟩ : BufTy).Contents (Elt Ideal)) (x2 : (⟨S576x192, .f32⟩ : BufTy).Contents (Elt Ideal))
  (x3 : (⟨S576, .f32⟩ : BufTy).Contents (Elt Ideal))

/-- The tokens of window `b`. -/
abbrev tok (b : Fin 4096) : Fin 49 → Fin 192 → EReal := fun n c => x0 (ix3 b n c)
/-- The projection's weights, feature first. -/
abbrev wq : Fin 576 → Fin 192 → EReal := fun o c => x2 (ix2 o c)
/-- The projection's bias. -/
abbrev bq : Fin 576 → EReal := fun o => x3 (ix1 o)

/-! ## The fused projection at an index -/

/-- The projection with its bias at (window, token, feature): the sum over the 192 channels of token times weight,
    plus the feature's bias. -/
theorem v3_at (b : Fin 4096) (n : Fin 49) (o : Fin 576) :
    val_main_v3 (F := Ideal) x0 x2 x3 (ix3 b n o)
      = (∑ c : Fin 192, x0 (ix3 b n c) * x2 (ix2 o c)) + x3 (ix1 o) := by
  rw [val_main_v3_apply, val_main_v0_apply, val_main_v2_apply, val_main_v1_apply, Ideal.addf_def]
  have hl : ∀ k : Fin 192, lidx_main_v0 (ix3 b n o) k = ix3 b n k := fun k => by
    funext a; match a with | ⟨0, _⟩ => rfl | ⟨1, _⟩ => rfl | ⟨2, _⟩ => rfl
  have hr : ∀ k : Fin 192, ridx_main_v0 (ix3 b n o) k = ix2 o k := fun k => by
    funext a; match a with | ⟨0, _⟩ => rfl | ⟨1, _⟩ => rfl
  have hb : idx_main_v1 (idx_main_v2 (ix3 b n o)) = ix1 o := by
    funext a; match a with | ⟨0, _⟩ => rfl
  rw [hb]
  refine congrArg (· + x3 (ix1 o)) (Finset.sum_congr rfl fun k _ => ?_)
  rw [hl, hr]

/-- Row-major position of (window, token, part, head, channel) splits back into window, token and the feature
    part * 192 + head * 32 + channel. -/
theorem idx45 (s : Fin 3) (b : Fin 4096) (h : Fin 6) (n : Fin 49) (d : Fin 32) :
    idx_main_v4 (idx_main_v5 (ix5 s b h n d)) = ix3 b n (feat s h d) := by
  have hs := s.isLt; have hb := b.isLt; have hh := h.isLt; have hn := n.isLt; have hd := d.isLt
  funext a
  match a with
  | ⟨0, _⟩ =>
    exact Fin.ext (by
      show ((((b.val * 49 + n.val) * 3 + s.val) * 6 + h.val) * 32 + d.val) / 28224 = b.val
      omega)
  | ⟨1, _⟩ =>
    exact Fin.ext (by
      show ((((b.val * 49 + n.val) * 3 + s.val) * 6 + h.val) * 32 + d.val) / 576 % 49 = n.val
      omega)
  | ⟨2, _⟩ =>
    exact Fin.ext (by
      show ((((b.val * 49 + n.val) * 3 + s.val) * 6 + h.val) * 32 + d.val) % 576 = s.val * 192 + h.val * 32 + d.val
      omega)

/-- The transposed projection at (part, window, head, token, channel) is the spec's projected feature. -/
theorem v5_at (s : Fin 3) (b : Fin 4096) (h : Fin 6) (n : Fin 49) (d : Fin 32) :
    val_main_v5 (F := Ideal) x0 x2 x3 (ix5 s b h n d) = comp (tok x0 b) (wq x2) (bq x3) s h n d := by
  rw [val_main_v5_apply, val_main_v4_apply, idx45, v3_at]
  rfl

/-- Dropping the leading unit axis: row-major position of (window, head, token, channel) splits back into the same
    four coordinates. -/
theorem split4 (b h n d : Nat) (hb : b < 4096) (hh : h < 6) (hn : n < 49) (hd : d < 32) :
    (((b * 6 + h) * 49 + n) * 32 + d) / 9408 % 4096 = b ∧ (((b * 6 + h) * 49 + n) * 32 + d) / 1568 % 6 = h
      ∧ (((b * 6 + h) * 49 + n) * 32 + d) / 32 % 49 = n ∧ (((b * 6 + h) * 49 + n) * 32 + d) % 32 = d := by
  refine ⟨?_, ?_, ?_, ?_⟩ <;> omega

/-- The query slice's source index. -/
theorem idx67 (b : Fin 4096) (h : Fin 6) (n : Fin 49) (d : Fin 32) :
    idx_main_v6 (idx_main_v7 (ix4 b h n d)) = ix5 (0 : Fin 3) b h n d := by
  have q := split4 b.val h.val n.val d.val b.isLt h.isLt n.isLt d.isLt
  funext a
  match a with
  | ⟨0, _⟩ => rfl
  | ⟨1, _⟩ => exact Fin.ext q.1
  | ⟨2, _⟩ => exact Fin.ext q.2.1
  | ⟨3, _⟩ => exact Fin.ext q.2.2.1
  | ⟨4, _⟩ => exact Fin.ext q.2.2.2

/-- The key slice's source index. -/
theorem idx89 (b : Fin 4096) (h : Fin 6) (n : Fin 49) (d : Fin 32) :
    idx_main_v8 (idx_main_v9 (ix4 b h n d)) = ix5 (1 : Fin 3) b h n d := by
  have q := split4 b.val h.val n.val d.val b.isLt h.isLt n.isLt d.isLt
  funext a
  match a with
  | ⟨0, _⟩ => rfl
  | ⟨1, _⟩ => exact Fin.ext q.1
  | ⟨2, _⟩ => exact Fin.ext q.2.1
  | ⟨3, _⟩ => exact Fin.ext q.2.2.1
  | ⟨4, _⟩ => exact Fin.ext q.2.2.2

/-- The value slice's source index. -/
theorem idx1011 (b : Fin 4096) (h : Fin 6) (n : Fin 49) (d : Fin 32) :
    idx_main_v10 (idx_main_v11 (ix4 b h n d)) = ix5 (2 : Fin 3) b h n d := by
  have q := split4 b.val h.val n.val d.val b.isLt h.isLt n.isLt d.isLt
  funext a
  match a with
  | ⟨0, _⟩ => rfl
  | ⟨1, _⟩ => exact Fin.ext q.1
  | ⟨2, _⟩ => exact Fin.ext q.2.1
  | ⟨3, _⟩ => exact Fin.ext q.2.2.1
  | ⟨4, _⟩ => exact Fin.ext q.2.2.2

/-- The query part. -/
theorem v7_apply (b : Fin 4096) (h : Fin 6) (n : Fin 49) (d : Fin 32) :
    val_main_v7 (F := Ideal) x0 x2 x3 (ix4 b h n d) = comp (tok x0 b) (wq x2) (bq x3) 0 h n d := by
  rw [val_main_v7_apply, val_main_v6_apply, idx67, v5_at]

/-- The key part. -/
theorem v9_apply (b : Fin 4096) (h : Fin 6) (n : Fin 49) (d : Fin 32) :
    val_main_v9 (F := Ideal) x0 x2 x3 (ix4 b h n d) = comp (tok x0 b) (wq x2) (bq x3) 1 h n d := by
  rw [val_main_v9_apply, val_main_v8_apply, idx89, v5_at]

/-- The value part. -/
theorem v11_apply (b : Fin 4096) (h : Fin 6) (n : Fin 49) (d : Fin 32) :
    val_main_v11 (F := Ideal) x0 x2 x3 (ix4 b h n d) = comp (tok x0 b) (wq x2) (bq x3) 2 h n d := by
  rw [val_main_v11_apply, val_main_v10_apply, idx1011, v5_at]

/-! ## Row lengths, unit rows and scores -/

/-- The bounded length of a query row: the square root of the sum over the 32 channels of the squared entries,
    bounded below by the small constant. The trailing coordinate ranges over a single value. -/
theorem v14_at (b : Fin 4096) (h : Fin 6) (n : Fin 49) (z : Fin 1) :
    val_main_v14 (F := Ideal) x0 x2 x3 (ix4 b h n z) = len (tok x0 b) (wq x2) (bq x3) 0 h n := by
  have hi : ∀ k : Fin 32, idx_main_call0_v1 (idx_main_call0_v2 (ix4 b h n z)) k = ix4 b h n k := fun k => by
    funext a; match a with | ⟨0, _⟩ => rfl | ⟨1, _⟩ => rfl | ⟨2, _⟩ => rfl | ⟨3, _⟩ => rfl
  rw [val_main_v14_apply, val_main_v12_apply, val_main_call0_v2_apply, val_main_call0_v1_apply, val_main_v13_apply,
    val_main_cst_apply, val_main_call0_cst_apply]
  simp only [hi, val_main_call0_v0_apply, v7_apply, Ideal.mulf_def, Ideal.maximumf_def, Ideal.hostUnary_sqrt_def,
    Ideal.ofBits_def, Ideal.ofBits_zero_f32, zero_add]
  rfl

/-- The bounded length of a key row, likewise. -/
theorem v19_at (b : Fin 4096) (h : Fin 6) (n : Fin 49) (z : Fin 1) :
    val_main_v19 (F := Ideal) x0 x2 x3 (ix4 b h n z) = len (tok x0 b) (wq x2) (bq x3) 1 h n := by
  have hi : ∀ k : Fin 32, idx_main_call1_v1 (idx_main_call1_v2 (ix4 b h n z)) k = ix4 b h n k := fun k => by
    funext a; match a with | ⟨0, _⟩ => rfl | ⟨1, _⟩ => rfl | ⟨2, _⟩ => rfl | ⟨3, _⟩ => rfl
  rw [val_main_v19_apply, val_main_v17_apply, val_main_call1_v2_apply, val_main_call1_v1_apply, val_main_v18_apply,
    val_main_cst_0_apply, val_main_call1_cst_apply]
  simp only [hi, val_main_call1_v0_apply, v9_apply, Ideal.mulf_def, Ideal.maximumf_def, Ideal.hostUnary_sqrt_def,
    Ideal.ofBits_def, Ideal.ofBits_zero_f32, zero_add]
  rfl

/-- Broadcasting a length back over the 32 channels reads it at the single trailing coordinate. -/
theorem idx15 (b : Fin 4096) (h : Fin 6) (n : Fin 49) (d : Fin 32) :
    idx_main_v15 (ix4 b h n d) = ix4 b h n (⟨0, Nat.one_pos⟩ : Fin 1) := by
  funext a; match a with | ⟨0, _⟩ => rfl | ⟨1, _⟩ => rfl | ⟨2, _⟩ => rfl | ⟨3, _⟩ => rfl

/-- The same for the key rows' lengths. -/
theorem idx20 (b : Fin 4096) (h : Fin 6) (n : Fin 49) (d : Fin 32) :
    idx_main_v20 (ix4 b h n d) = ix4 b h n (⟨0, Nat.one_pos⟩ : Fin 1) := by
  funext a; match a with | ⟨0, _⟩ => rfl | ⟨1, _⟩ => rfl | ⟨2, _⟩ => rfl | ⟨3, _⟩ => rfl

/-- The unit query rows. -/
theorem v16_apply (b : Fin 4096) (h : Fin 6) (n : Fin 49) (d : Fin 32) :
    val_main_v16 (F := Ideal) x0 x2 x3 (ix4 b h n d) = dir (tok x0 b) (wq x2) (bq x3) 0 h n d := by
  rw [val_main_v16_apply, val_main_v15_apply, idx15, v14_at, v7_apply, Ideal.hostDivf_def]
  rfl

/-- The unit key rows. -/
theorem v21_apply (b : Fin 4096) (h : Fin 6) (n : Fin 49) (d : Fin 32) :
    val_main_v21 (F := Ideal) x0 x2 x3 (ix4 b h n d) = dir (tok x0 b) (wq x2) (bq x3) 1 h n d := by
  rw [val_main_v21_apply, val_main_v20_apply, idx20, v19_at, v9_apply, Ideal.hostDivf_def]
  rfl

/-- The cosine scores: the sum over the 32 channels of unit query row n times unit key row m. -/
theorem v22_apply (b : Fin 4096) (h : Fin 6) (n m : Fin 49) :
    val_main_v22 (F := Ideal) x0 x2 x3 (ix4 b h n m) = score (tok x0 b) (wq x2) (bq x3) h n m := by
  have hl : ∀ k : Fin 32, lidx_main_v22 (ix4 b h n m) k = ix4 b h n k := fun k => by
    funext a; match a with | ⟨0, _⟩ => rfl | ⟨1, _⟩ => rfl | ⟨2, _⟩ => rfl | ⟨3, _⟩ => rfl
  have hr : ∀ k : Fin 32, ridx_main_v22 (ix4 b h n m) k = ix4 b h m k := fun k => by
    funext a; match a with | ⟨0, _⟩ => rfl | ⟨1, _⟩ => rfl | ⟨2, _⟩ => rfl | ⟨3, _⟩ => rfl
  rw [val_main_v22_apply]
  simp only [hl, hr, v16_apply, v21_apply]
  rfl

end Cert.ReferenceIdeal.Bridge

end
-- ==== Proof.RefMix.lean ====
/-
  The reference's later stages read at an index: logits (scale, position bias, the mask of window b mod 64), the
  softmax over the key tokens, the mix of value rows, heads side by side, the last projection.
-/
import proofs.«149519_j27470610825456_1_alg».proof.Proof.RefProj

noncomputable section

namespace Cert.ReferenceIdeal.Bridge

open Cert.ReferenceIdeal Cert.ReferenceIdeal.Gen Cert.ReferenceIdeal.Read Idealize.ShloMosaic Idealize.ShloMosaic.ValueIdx WinAttn

/-- The mask row of window `b`: the masks repeat with period 64. -/
def maskRow (b : Fin 4096) : Fin 64 := ⟨b.val % 64, Nat.mod_lt _ (by decide)⟩

/-! The stages one at a time, each read at explicit coordinates (window b, head h, tokens n and m, lane d, channel c). -/
namespace RefMix

section Stages

variable (x0 : (⟨S4096x49x192, .f32⟩ : BufTy).Contents (Elt Ideal)) (x1 : (⟨S64x49x49, .f32⟩ : BufTy).Contents (Elt Ideal))
  (x2 : (⟨S576x192, .f32⟩ : BufTy).Contents (Elt Ideal)) (x3 : (⟨S576, .f32⟩ : BufTy).Contents (Elt Ideal))
  (x4 : (⟨S6x1x1, .f32⟩ : BufTy).Contents (Elt Ideal)) (x5 : (⟨S169x6, .f32⟩ : BufTy).Contents (Elt Ideal))
  (x6 : (⟨S49x49, .i32⟩ : BufTy).Contents (Elt Ideal)) (x7 : (⟨S192x192, .f32⟩ : BufTy).Contents (Elt Ideal))
  (x8 : (⟨S192, .f32⟩ : BufTy).Contents (Elt Ideal))

/-- The heads' scales. -/
abbrev scl : Fin 6 → EReal := fun h => scaleOf (x4 (ix3 h 0 0))
/-- The position bias of head h at tokens (n, m). -/
abbrev pbias : Fin 6 → Fin 49 → Fin 49 → EReal := fun h n m => val_main_v38 (F := Ideal) x5 x6 (ix3 h n m)
/-- The mask of window b at tokens (n, m). -/
abbrev msk (b : Fin 4096) : Fin 49 → Fin 49 → EReal := fun n m => x1 (ix3 (maskRow b) n m)

/-! ## The logits -/

/-- The scale broadcast to (window, head, n, m) depends on the head only: its two broadcasts read entry (h, 0, 0). -/
theorem idx_scale (b : Fin 4096) (h : Fin 6) (n m : Fin 49) :
    idx_main_v26 (idx_main_v27 (ix4 b h n m)) = ix3 h 0 0 := by
  funext a; match a with | ⟨0, _⟩ => rfl | ⟨1, _⟩ => rfl | ⟨2, _⟩ => rfl

/-- The broadcast scale is the head's scale: the exponential of the capped logarithm. -/
theorem v27_apply (b : Fin 4096) (h : Fin 6) (n m : Fin 49) :
    val_main_v27 (F := Ideal) x4 (ix4 b h n m) = scl x4 h := by
  rw [val_main_v27_apply, val_main_v26_apply, idx_scale, val_main_v25_apply, val_main_v24_apply, val_main_v23_apply,
    val_main_cst_1_apply]
  rfl

/-- The position bias broadcast over the windows reads entry (h, n, m). -/
theorem idx_bias (b : Fin 4096) (h : Fin 6) (n m : Fin 49) :
    idx_main_v39 (idx_main_v40 (ix4 b h n m)) = ix3 h n m := by
  funext a; match a with | ⟨0, _⟩ => rfl | ⟨1, _⟩ => rfl | ⟨2, _⟩ => rfl

/-- Scaled score plus position bias. -/
theorem v41_apply (b : Fin 4096) (h : Fin 6) (n m : Fin 49) :
    val_main_v41 (F := Ideal) x0 x2 x3 x4 x5 x6 (ix4 b h n m)
      = score (tok x0 b) (wq x2) (bq x3) h n m * scl x4 h + pbias x5 x6 h n m := by
  rw [val_main_v41_apply, val_main_v28_apply, v22_apply, v27_apply, val_main_v40_apply, val_main_v39_apply, idx_bias]
  rfl

/-- The reshape to the 64 x 64 grid of windows reads window b at grid cell (b / 64, b % 64). -/
theorem idx_v46 (b : Fin 4096) (h : Fin 6) (n m : Fin 49) :
    idx_main_v46 (ix4 b h n m) = ix5 (⟨b.val / 64, by have := b.isLt; omega⟩ : Fin 64) (maskRow b) h n m := by
  have hb := b.isLt; have hh := h.isLt; have hn := n.isLt; have hm := m.isLt
  funext a
  match a with
  | ⟨0, _⟩ => exact Fin.ext (by show (((b.val * 6 + h.val) * 49 + n.val) * 49 + m.val) / 921984 = b.val / 64; omega)
  | ⟨1, _⟩ => exact Fin.ext (by show (((b.val * 6 + h.val) * 49 + n.val) * 49 + m.val) / 14406 % 64 = b.val % 64; omega)
  | ⟨2, _⟩ => exact Fin.ext (by show (((b.val * 6 + h.val) * 49 + n.val) * 49 + m.val) / 2401 % 6 = h.val; omega)
  | ⟨3, _⟩ => exact Fin.ext (by show (((b.val * 6 + h.val) * 49 + n.val) * 49 + m.val) / 49 % 49 = n.val; omega)
  | ⟨4, _⟩ => exact Fin.ext (by show (((b.val * 6 + h.val) * 49 + n.val) * 49 + m.val) % 49 = m.val; omega)

/-- The reshape from the windows to the grid reads grid cell (c0, c1) at window c0 * 64 + c1. -/
theorem idx_v42 (c0 c1 : Fin 64) (h : Fin 6) (n m : Fin 49) :
    idx_main_v42 (ix5 c0 c1 h n m)
      = ix4 (⟨c0.val * 64 + c1.val, by have := c0.isLt; have := c1.isLt; omega⟩ : Fin 4096) h n m := by
  have h0 := c0.isLt; have h1 := c1.isLt; have hh := h.isLt; have hn := n.isLt; have hm := m.isLt
  funext a
  match a with
  | ⟨0, _⟩ => exact Fin.ext (by show ((((c0.val * 64 + c1.val) * 6 + h.val) * 49 + n.val) * 49 + m.val) / 14406 = c0.val * 64 + c1.val; omega)
  | ⟨1, _⟩ => exact Fin.ext (by show ((((c0.val * 64 + c1.val) * 6 + h.val) * 49 + n.val) * 49 + m.val) / 2401 % 6 = h.val; omega)
  | ⟨2, _⟩ => exact Fin.ext (by show ((((c0.val * 64 + c1.val) * 6 + h.val) * 49 + n.val) * 49 + m.val) / 49 % 49 = n.val; omega)
  | ⟨3, _⟩ => exact Fin.ext (by show ((((c0.val * 64 + c1.val) * 6 + h.val) * 49 + n.val) * 49 + m.val) % 49 = m.val; omega)

/-- Grid cell (b / 64, b % 64) is window b. -/
theorem grid_back (b : Fin 4096) :
    (⟨(⟨b.val / 64, by have := b.isLt; omega⟩ : Fin 64).val * 64 + (maskRow b).val,
      by have := b.isLt; show b.val / 64 * 64 + b.val % 64 < 4096; omega⟩ : Fin 4096) = b :=
  Fin.ext (by show b.val / 64 * 64 + b.val % 64 = b.val; omega)

/-- The mask broadcast over the grid's first axis and over the heads reads mask (c1, n, m). -/
theorem idx_mask (c0 c1 : Fin 64) (h : Fin 6) (n m : Fin 49) :
    idx_main_v43 (idx_main_v44 (ix5 c0 c1 h n m)) = ix3 c1 n m := by
  funext a; match a with | ⟨0, _⟩ => rfl | ⟨1, _⟩ => rfl | ⟨2, _⟩ => rfl

/-- The logit of window b: scaled score, plus position bias, plus the mask of row b % 64. -/
theorem v46_apply (b : Fin 4096) (h : Fin 6) (n m : Fin 49) :
    val_main_v46 (F := Ideal) x0 x1 x2 x3 x4 x5 x6 (ix4 b h n m)
      = logit (score (tok x0 b) (wq x2) (bq x3)) (scl x4) (pbias x5 x6) (msk x1 b) h n m := by
  rw [val_main_v46_apply, idx_v46, val_main_v45_apply, val_main_v42_apply, idx_v42, grid_back, v41_apply,
    val_main_v44_apply, val_main_v43_apply, idx_mask]
  rfl

/-! ## The softmax over the key tokens -/

/-- The key-token axis as the reduced axis. -/
theorem red_d3 : S4096x6x49x49.Reduces [3] S4096x6x49 := by decide

/-- The key token m inserted into (b, h, n). -/
theorem lift_d3 (b : Fin 4096) (h : Fin 6) (n m : Fin 49) : red_d3.lift (ix3 b h n) m = ix4 b h n m := by
  funext a
  exact Fin.ext (by match a with | ⟨0, _⟩ => rfl | ⟨1, _⟩ => rfl | ⟨2, _⟩ => rfl | ⟨3, _⟩ => rfl)

/-- A maximum-reduce over the key-token axis, read at (b, h, n) for any source array: the fold of max over m, from
    the initial value's one element. -/
theorem reduce_max_d3 (y : (⟨S4096x6x49x49, .f32⟩ : BufTy).Contents (Elt Ideal))
    (init : (⟨S_, .f32⟩ : BufTy).Contents (Elt Ideal)) (b : Fin 4096) (h : Fin 6) (n : Fin 49) :
    Host.reduce (FloatOps.maximumf (F := Ideal) (φ := .f32)) y init reducesTo_S4096x6x49x49_S4096x6x49_d3 h_S_ (ix3 b h n)
      = Finset.univ.fold max (init (Shape.Idx.first h_S_)) (fun m : Fin 49 => y (ix4 b h n m)) := by
  rw [Host.reduce_eq_fold_single (FloatOps.maximumf (F := Ideal) (φ := .f32)) y init
    reducesTo_S4096x6x49x49_S4096x6x49_d3 red_d3 h_S_]
  have e : (y ∘ red_d3.lift (ix3 b h n)) = fun m : Fin 49 => y (ix4 b h n m) :=
    funext fun m => congrArg y (lift_d3 b h n m)
  rw [e]
  rfl

/-- The row maximum is the fold of max over the key tokens, from minus infinity. -/
theorem v47_apply (b : Fin 4096) (h : Fin 6) (n : Fin 49) :
    val_main_v47 (F := Ideal) x0 x1 x2 x3 x4 x5 x6 (ix3 b h n)
      = Finset.univ.fold max bottom (fun m : Fin 49 => logit (score (tok x0 b) (wq x2) (bq x3)) (scl x4) (pbias x5 x6) (msk x1 b) h n m) := by
  unfold val_main_v47
  rw [reduce_max_d3, val_main_cst_3_apply, Ideal.ofBits_def]
  simp only [v46_apply]

/-- The row's top: the maximum once more against minus infinity. -/
theorem v49_apply (b : Fin 4096) (h : Fin 6) (n : Fin 49) :
    val_main_v49 (F := Ideal) x0 x1 x2 x3 x4 x5 x6 (ix3 b h n) = top (score (tok x0 b) (wq x2) (bq x3)) (scl x4) (pbias x5 x6) (msk x1 b) h n := by
  rw [val_main_v49_apply, val_main_v48_apply, val_main_cst_4_apply, v47_apply]
  rfl

/-- A row statistic broadcast along the key tokens reads entry (b, h, n). -/
theorem idx_row (b : Fin 4096) (h : Fin 6) (n m : Fin 49) :
    idx_main_v50 (idx_main_v51 (ix4 b h n m)) = ix3 b h n := by
  funext a; match a with | ⟨0, _⟩ => rfl | ⟨1, _⟩ => rfl | ⟨2, _⟩ => rfl

/-- The unnormalised weight: the exponential of logit minus top. -/
theorem v53_apply (b : Fin 4096) (h : Fin 6) (n m : Fin 49) :
    val_main_v53 (F := Ideal) x0 x1 x2 x3 x4 x5 x6 (ix4 b h n m) = wexp (score (tok x0 b) (wq x2) (bq x3)) (scl x4) (pbias x5 x6) (msk x1 b) h n m := by
  rw [val_main_v53_apply, val_main_v52_apply, v46_apply, val_main_v51_apply, val_main_v50_apply, idx_row, v49_apply]
  rfl

/-- The summed axis's coordinate k inserted into (b, h, n). -/
theorem idx_v54 (b : Fin 4096) (h : Fin 6) (n k : Fin 49) : idx_main_v54 (ix3 b h n) k = ix4 b h n k := by
  funext a; match a with | ⟨0, _⟩ => rfl | ⟨1, _⟩ => rfl | ⟨2, _⟩ => rfl | ⟨3, _⟩ => rfl

/-- The row's sum of weights, from zero. -/
theorem v54_apply (b : Fin 4096) (h : Fin 6) (n : Fin 49) :
    val_main_v54 (F := Ideal) x0 x1 x2 x3 x4 x5 x6 (ix3 b h n) = ∑ m' : Fin 49, wexp (score (tok x0 b) (wq x2) (bq x3)) (scl x4) (pbias x5 x6) (msk x1 b) h n m' := by
  rw [val_main_v54_apply, val_main_cst_5_apply, Ideal.ofBits_def, Ideal.ofBits_zero_f32, zero_add]
  exact Finset.sum_congr rfl fun k _ => by rw [idx_v54, v53_apply]

/-- The sum broadcast along the key tokens reads entry (b, h, n). -/
theorem idx_row' (b : Fin 4096) (h : Fin 6) (n m : Fin 49) :
    idx_main_v55 (idx_main_v56 (ix4 b h n m)) = ix3 b h n := by
  funext a; match a with | ⟨0, _⟩ => rfl | ⟨1, _⟩ => rfl | ⟨2, _⟩ => rfl

/-- The softmax weight. -/
theorem v57_apply (b : Fin 4096) (h : Fin 6) (n m : Fin 49) :
    val_main_v57 (F := Ideal) x0 x1 x2 x3 x4 x5 x6 (ix4 b h n m) = prob (score (tok x0 b) (wq x2) (bq x3)) (scl x4) (pbias x5 x6) (msk x1 b) h n m := by
  rw [val_main_v57_apply, v53_apply, val_main_v56_apply, val_main_v55_apply, idx_row', v54_apply]
  rfl

/-! ## The mix of value rows, the heads side by side, the last projection -/

/-- The value rows of window b. -/
abbrev vals (b : Fin 4096) : Fin 6 → Fin 49 → Fin 32 → EReal := fun h m d => comp (tok x0 b) (wq x2) (bq x3) 2 h m d

/-- The weights' operand of the contraction over key token k reads (b, h, n, k). -/
theorem lidx_v58 (b : Fin 4096) (h : Fin 6) (n : Fin 49) (d : Fin 32) (k : Fin 49) :
    lidx_main_v58 (ix4 b h n d) k = ix4 b h n k := by
  funext a; match a with | ⟨0, _⟩ => rfl | ⟨1, _⟩ => rfl | ⟨2, _⟩ => rfl | ⟨3, _⟩ => rfl

/-- The value operand of the contraction over key token k reads (b, h, k, d). -/
theorem ridx_v58 (b : Fin 4096) (h : Fin 6) (n : Fin 49) (d : Fin 32) (k : Fin 49) :
    ridx_main_v58 (ix4 b h n d) k = ix4 b h k d := by
  funext a; match a with | ⟨0, _⟩ => rfl | ⟨1, _⟩ => rfl | ⟨2, _⟩ => rfl | ⟨3, _⟩ => rfl

/-- The weighted mix of the value rows. -/
theorem v58_apply (b : Fin 4096) (h : Fin 6) (n : Fin 49) (d : Fin 32) :
    val_main_v58 (F := Ideal) x0 x1 x2 x3 x4 x5 x6 (ix4 b h n d) = mix (score (tok x0 b) (wq x2) (bq x3)) (vals x0 x2 x3 b) (scl x4) (pbias x5 x6) (msk x1 b) h n d := by
  rw [val_main_v58_apply]
  exact Finset.sum_congr rfl fun k _ => by rw [lidx_v58, ridx_v58, v57_apply, v11_apply]

/-- Heads side by side: merged channel c of token n is lane c % 32 of head c / 32. -/
theorem idx_heads (b : Fin 4096) (n : Fin 49) (c : Fin 192) :
    idx_main_v59 (idx_main_v60 (ix3 b n c)) = ix4 b (headOf c) n (laneOf c) := by
  have hb := b.isLt; have hn := n.isLt; have hc := c.isLt
  funext a
  match a with
  | ⟨0, _⟩ => exact Fin.ext (by show ((b.val * 49 + n.val) * 192 + c.val) / 9408 = b.val; omega)
  | ⟨1, _⟩ => exact Fin.ext (by show ((b.val * 49 + n.val) * 192 + c.val) / 32 % 6 = c.val / 32; omega)
  | ⟨2, _⟩ => exact Fin.ext (by show ((b.val * 49 + n.val) * 192 + c.val) / 192 % 49 = n.val; omega)
  | ⟨3, _⟩ => exact Fin.ext (by show ((b.val * 49 + n.val) * 192 + c.val) % 32 = c.val % 32; omega)

/-- The merged mix at (window, token, channel). -/
theorem v60_apply (b : Fin 4096) (n : Fin 49) (c : Fin 192) :
    val_main_v60 (F := Ideal) x0 x1 x2 x3 x4 x5 x6 (ix3 b n c) = mix (score (tok x0 b) (wq x2) (bq x3)) (vals x0 x2 x3 b) (scl x4) (pbias x5 x6) (msk x1 b) (headOf c) n (laneOf c) := by
  rw [val_main_v60_apply, val_main_v59_apply, idx_heads, v58_apply]

/-- The mix operand of the last contraction over channel k reads (b, n, k). -/
theorem lidx_v61 (b : Fin 4096) (n : Fin 49) (j k : Fin 192) : lidx_main_v61 (ix3 b n j) k = ix3 b n k := by
  funext a; match a with | ⟨0, _⟩ => rfl | ⟨1, _⟩ => rfl | ⟨2, _⟩ => rfl

/-- The weight operand of the last contraction over channel k reads (j, k). -/
theorem ridx_v61 (b : Fin 4096) (n : Fin 49) (j k : Fin 192) : ridx_main_v61 (ix3 b n j) k = ix2 j k := by
  funext a; match a with | ⟨0, _⟩ => rfl | ⟨1, _⟩ => rfl

/-- The projection's bias broadcast over windows and tokens reads entry j. -/
theorem idx_pb (b : Fin 4096) (n : Fin 49) (j : Fin 192) : idx_main_v62 (idx_main_v63 (ix3 b n j)) = ix1 j := by
  funext a; match a with | ⟨0, _⟩ => rfl

/-- The last projection plus its bias. -/
theorem v64_stage (b : Fin 4096) (n : Fin 49) (j : Fin 192) :
    val_main_v64 (F := Ideal) x0 x1 x2 x3 x4 x5 x6 x7 x8 (ix3 b n j)
      = outOf (score (tok x0 b) (wq x2) (bq x3)) (vals x0 x2 x3 b) (scl x4) (pbias x5 x6) (msk x1 b) (fun j c => x7 (ix2 j c)) (fun j => x8 (ix1 j)) n j := by
  rw [val_main_v64_apply, val_main_v61_apply, val_main_v63_apply, val_main_v62_apply, idx_pb, Ideal.addf_def]
  unfold outOf
  refine congrArg (· + x8 (ix1 j)) (Finset.sum_congr rfl fun k _ => ?_)
  rw [lidx_v61, ridx_v61, v60_apply]

end Stages

end RefMix

/-- The reference's result at (window, token, channel) is the window's output. -/
theorem v64_apply (x0 : (⟨S4096x49x192, .f32⟩ : BufTy).Contents (Elt Ideal)) (x1 : (⟨S64x49x49, .f32⟩ : BufTy).Contents (Elt Ideal))
    (x2 : (⟨S576x192, .f32⟩ : BufTy).Contents (Elt Ideal)) (x3 : (⟨S576, .f32⟩ : BufTy).Contents (Elt Ideal))
    (x4 : (⟨S6x1x1, .f32⟩ : BufTy).Contents (Elt Ideal)) (x5 : (⟨S169x6, .f32⟩ : BufTy).Contents (Elt Ideal))
    (x6 : (⟨S49x49, .i32⟩ : BufTy).Contents (Elt Ideal)) (x7 : (⟨S192x192, .f32⟩ : BufTy).Contents (Elt Ideal))
    (x8 : (⟨S192, .f32⟩ : BufTy).Contents (Elt Ideal)) (b : Fin 4096) (n : Fin 49) (j : Fin 192) :
    val_main_v64 (F := Ideal) x0 x1 x2 x3 x4 x5 x6 x7 x8 (ix3 b n j)
      = out (tok x0 b) (wq x2) (bq x3) (fun h => scaleOf (x4 (ix3 h 0 0)))
          (fun h n m => val_main_v38 (F := Ideal) x5 x6 (ix3 h n m)) (fun n m => x1 (ix3 (maskRow b) n m))
          (fun j c => x7 (ix2 j c)) (fun j => x8 (ix1 j)) n j := by
  exact RefMix.v64_stage x0 x1 x2 x3 x4 x5 x6 x7 x8 b n j

end Cert.ReferenceIdeal.Bridge

end
-- ==== Proof.lean ====
/-
  Windowed cosine attention: the tiled kernel against the whole-batch reference, over the extended reals.

  Both programs compute, for each of the 4096 windows, the same function of the window's tokens, the mask row
  (window mod 64), the projection weights and biases, the per-head scales `exp (min l cap)` and the position bias
  gathered from its table: project to query, key and value rows; divide query and key rows by their bounded lengths;
  score = inner product, scaled, plus bias, plus mask; softmax over the key tokens; mix the value rows; merge the
  heads; project. The kernel does it 32 windows at a time with its weight matrices staged transposed; the reference
  does it for all windows at once through reshapes and transposes. Neither side reorders anything but sums, so no
  law beyond commutativity of the sums' index changes is needed, and finiteness of the inputs is not used.

  The kernel's array after its run is read tile by tile (KerArray, over KerProj and KerMix for the body's two
  halves); the reference's result is read stage by stage (RefProj, RefMix); both meet in the one specification
  (Spec). The position bias is the same host term in both programs.
-/
import proofs.«149519_j27470610825456_1_alg».proof.Defs
import proofs.«149519_j27470610825456_1_alg».proof.Proof.Gen.Kernel
import proofs.«149519_j27470610825456_1_alg».proof.Proof.Gen.Kernel.Skeleton
import proofs.«149519_j27470610825456_1_alg».proof.Proof.Gen.Kernel.Launch
import proofs.«149519_j27470610825456_1_alg».proof.Proof.Gen.Kernel.Points
import proofs.«149519_j27470610825456_1_alg».proof.Proof.Gen.Kernel.Frame
import proofs.«149519_j27470610825456_1_alg».proof.Proof.Gen.KernelIdeal
import proofs.«149519_j27470610825456_1_alg».proof.Proof.Gen.KernelIdeal.Skeleton
import proofs.«149519_j27470610825456_1_alg».proof.Proof.Gen.KernelIdeal.Launch
import proofs.«149519_j27470610825456_1_alg».proof.Proof.Gen.KernelIdeal.Points
import proofs.«149519_j27470610825456_1_alg».proof.Proof.Gen.KernelIdeal.Frame
import proofs.«149519_j27470610825456_1_alg».proof.Proof.Gen.ReferenceIdeal
import proofs.«149519_j27470610825456_1_alg».proof.Proof.Gen.KernelIdeal.Value
import proofs.«149519_j27470610825456_1_alg».proof.Proof.Gen.ReferenceIdeal.Run
import proofs.«149519_j27470610825456_1_alg».proof.Proof.Gen.ReferenceIdeal.Read
import proofs.«149519_j27470610825456_1_alg».proof.Proof.Gen.Pre_finite_inputs
import proofs.«149519_j27470610825456_1_alg».proof.Proof.KerArray
import proofs.«149519_j27470610825456_1_alg».proof.Proof.RefMix
import Idealize.ShloMosaic.Adequacy
import Idealize.ShloMosaic.Init
import Idealize.ShloMosaic.Lib.StableHlo.Run

noncomputable section

namespace Cert.Proof

open Idealize.ShloMosaic Idealize.ShloMosaic.TcCoe Idealize.SL.Sem Idealize.ShloMosaic.StableHlo Idealize.ShloMosaic.ValueIdx

/-- The position bias the kernel stages is the reference's bias stage of the same table and index arrays: one host
    term (wrap negative indices, gather rows of the table, lay them out head first). -/
theorem bias_same (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.KernelIdeal.S6x49x49.Idx → EReal)
      = Cert.ReferenceIdeal.Read.val_main_v38 (F := Ideal)
          (m ((c : Thread Cert.KernelIdeal.nD Cert.KernelIdeal.τ).loc Cert.KernelIdeal.main_arg5))
          (m ((c : Thread Cert.KernelIdeal.nD Cert.KernelIdeal.τ).loc Cert.KernelIdeal.main_arg6)) := by
  dsimp only [Cert.KernelIdeal.Gen.V, Cert.KernelIdeal.Gen.hostOps0]
  after_results
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with every window's attention output in the result array. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq]
  obtain ⟨a0, a1, a2, a3, a4, a5, a6, a7, a8⟩ := hagree c
  rw [a0, a1, a2, a3, a4, a5, a6, a7, a8]
  funext i
  obtain ⟨b, n, j, rfl⟩ : ∃ (b : Fin 4096) (n : Fin 49) (j : Fin 192), i = ix3 b n j := ⟨i 0, i 1, i 2, eq_ix3 i⟩
  rw [Cert.ReferenceIdeal.Bridge.v64_apply]
  dsimp only [Cert.KernelIdeal.Whole.G]
  rw [bias_same m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
